-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x131072x1 : Shape := ⟨3, ![4, 131072, 1]⟩
abbrev S16x131072 : Shape := ⟨2, ![16, 131072]⟩
abbrev S16 : Shape := ⟨1, ![16]⟩
abbrev S4x2x8388608 : Shape := ⟨3, ![4, 2, 8388608]⟩
abbrev S4 : Shape := ⟨1, ![4]⟩
abbrev S_ : Shape := ⟨0, ![]⟩
abbrev S131072 : Shape := ⟨1, ![131072]⟩
abbrev S1x1x8388608 : Shape := ⟨3, ![1, 1, 8388608]⟩
abbrev S8388608 : Shape := ⟨1, ![8388608]⟩
abbrev S8388608x1 : Shape := ⟨2, ![8388608, 1]⟩

class Facts : Prop where
  bcast_S_S4x131072x1 : S_.BroadcastsInDim S4x131072x1 (![] : Fin 0 → Fin S4x131072x1.rank)
  reducesTo_S4x131072x1_S_d0_1_2 : S4x131072x1.ReducesTo [0, 1, 2] S_
  h_S_ : 0 < S_.numel
  bcast_S_S16x131072 : S_.BroadcastsInDim S16x131072 (![] : Fin 0 → Fin S16x131072.rank)
  reducesTo_S16x131072_S_d0_1 : S16x131072.ReducesTo [0, 1] S_
  bcast_S_S16 : S_.BroadcastsInDim S16 (![] : Fin 0 → Fin S16.rank)
  reducesTo_S16_S_d0 : S16.ReducesTo [0] S_
  bcast_S_S131072 : S_.BroadcastsInDim S131072 (![] : Fin 0 → Fin S131072.rank)
  slices_S4x2x8388608_S1x1x8388608_0_0_0 : S4x2x8388608.Slices ![0, 0, 0] S1x1x8388608
  shapeCasts_S1x1x8388608_S8388608 : S1x1x8388608.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  reducesTo_S131072_S_d0 : S131072.ReducesTo [0] S_
  scatter_S131072_S8388608x1_S8388608_n_0_0_1_wf : ScatterDims.WF S131072 S8388608x1 S8388608 [] [0] [0] 1

variable [Facts]

def scatter_S131072_S8388608x1_S8388608_n_0_0_1 : ScatterDims S131072 S8388608x1 S8388608 where
  updateWindowDims := []
  insertedWindowDims := [0]
  scatterDimsToOperandDims := [0]
  indexVectorDim := 1
  wf := scatter_S131072_S8388608x1_S8388608_n_0_0_1_wf
def fn_part1 {F : FTy → Type} [FloatOps F] (main_v13 : IVec S_ 1) (main_v14 : FVec F S131072 .f32) (main_v16 : IVec S8388608 32) : IVec S_ 1 :=
  let main_c_5 : IVec S_ 32 := constantI S_ 32 0#32
  let main_v17 : IVec S8388608 32 := broadcastInDim S8388608 ![] bcast_S_S8388608 main_c_5
  let main_v18 : IVec S8388608 1 := cmpi .slt main_v16 main_v17
  let main_c_6 : IVec S_ 32 := constantI S_ 32 131072#32
  let main_v19 : IVec S8388608 32 := broadcastInDim S8388608 ![] bcast_S_S8388608 main_c_6
  let main_v20 : IVec S8388608 32 := addi main_v16 main_v19
  let main_v21 : IVec S8388608 32 := select main_v18 main_v20 main_v16
  let main_v22 : IVec S8388608x1 32 := broadcastInDim S8388608x1 ![0] bcast_S8388608_S8388608x1_0 main_v21
  let main_cst_7 : FVec F S_ .f32 := constant S_ .f32 0x3F800000#32
  let main_v23 : FVec F S8388608 .f32 := broadcastInDim S8388608 ![] bcast_S_S8388608 main_cst_7
  let main_v24 : FVec F S131072 .f32 := (fun x i u => Host.scatterAdd scatter_S131072_S8388608x1_S8388608_n_0_0_1 x i u) main_v14 main_v22 main_v23
  let main_cst_8 : FVec F S_ .f32 := constant S_ .f32 0x00000000#32
  let main_v25 : FVec F S131072 .f32 := broadcastInDim S131072 ![] bcast_S_S131072 main_cst_8
  let main_v26 : IVec S131072 1 := cmpf .ogt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v13 main_v27
  main_v28

def fn {F : FTy → Type} [FloatOps F] (main_arg0 : FVec F S4x131072x1 .f32) (main_arg1 : FVec F S16x131072 .f32) (main_arg2 : FVec F S16 .f32) (main_arg3 : IVec S4x2x8388608 32) (main_arg4 : IVec S4 32) : IVec S_ 1 :=
  let main_v0 : FVec F S4x131072x1 .f32 := Host.absf main_arg0
  let main_cst : FVec F S_ .f32 := constant S_ .f32 0x7F800000#32
  let main_v1 : FVec F S4x131072x1 .f32 := broadcastInDim S4x131072x1 ![] bcast_S_S4x131072x1 main_cst
  let main_v2 : IVec S4x131072x1 1 := cmpf .olt main_v0 main_v1
  let main_c : IVec S_ 1 := constantI S_ 1 1#1
  let main_v3 : IVec S_ 1 := (fun x v => Host.reduce IntOp.andi x v reducesTo_S4x131072x1_S_d0_1_2 h_S_) main_v2 main_c
  let main_v4 : FVec F S16x131072 .f32 := Host.absf main_arg1
  let main_cst_0 : FVec F S_ .f32 := constant S_ .f32 0x7F800000#32
  let main_v5 : FVec F S16x131072 .f32 := broadcastInDim S16x131072 ![] bcast_S_S16x131072 main_cst_0
  let main_v6 : IVec S16x131072 1 := cmpf .olt main_v4 main_v5
  let main_c_1 : IVec S_ 1 := constantI S_ 1 1#1
  let main_v7 : IVec S_ 1 := (fun x v => Host.reduce IntOp.andi x v reducesTo_S16x131072_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_cst_4 : FVec F S_ .f32 := constant S_ .f32 0x00000000#32
  let main_v14 : FVec F S131072 .f32 := broadcastInDim S131072 ![] bcast_S_S131072 main_cst_4
  let main_v15 : IVec S1x1x8388608 32 := (extractStridedSlice S1x1x8388608 ![0, 0, 0] · slices_S4x2x8388608_S1x1x8388608_0_0_0) main_arg3
  let main_v16 : IVec S8388608 32 := shapeCast S8388608 main_v15 shapeCasts_S1x1x8388608_S8388608
  fn_part1 (F := F) main_v13 main_v14 main_v16
-- ==== Kernel.lean ====
abbrev S4x131072x1 : Shape := ⟨3, ![4, 131072, 1]⟩
abbrev S16x131072 : Shape := ⟨2, ![16, 131072]⟩
abbrev S16 : Shape := ⟨1, ![16]⟩
abbrev S4x2x8388608 : Shape := ⟨3, ![4, 2, 8388608]⟩
abbrev S4 : Shape := ⟨1, ![4]⟩
abbrev S1x1x8388608 : Shape := ⟨3, ![1, 1, 8388608]⟩
abbrev S8388608 : Shape := ⟨1, ![8388608]⟩
abbrev S_ : Shape := ⟨0, ![]⟩
abbrev S131072 : Shape := ⟨1, ![131072]⟩
abbrev S8388608x1 : Shape := ⟨2, ![8388608, 1]⟩
abbrev S1x131072x1 : Shape := ⟨3, ![1, 131072, 1]⟩
abbrev S1x131072 : Shape := ⟨2, ![1, 131072]⟩
abbrev S2x1x16 : Shape := ⟨3, ![2, 1, 16]⟩
abbrev S1x32768 : Shape := ⟨2, ![1, 32768]⟩
abbrev S16x32768 : Shape := ⟨2, ![16, 32768]⟩
abbrev S1x1x16 : Shape := ⟨3, ![1, 1, 16]⟩
abbrev S1x16 : Shape := ⟨2, ![1, 16]⟩
abbrev S4x1x16 : Shape := ⟨3, ![4, 1, 16]⟩
abbrev S1 : Shape := ⟨1, ![1]⟩

abbrev nBuf : Space → Nat
  | .hbm => 59
  | .vmem => 8
  | .smem => 0
  | _ => 0

abbrev bufTy : (tb : Table) → Fin (tcTables nBuf tb) → BufTy
  | .hbm, ⟨0, _⟩ => ⟨S4x131072x1, .f32⟩
  | .hbm, ⟨1, _⟩ => ⟨S16x131072, .f32⟩
  | .hbm, ⟨2, _⟩ => ⟨S16, .f32⟩
  | .hbm, ⟨3, _⟩ => ⟨S4x2x8388608, .i32⟩
  | .hbm, ⟨4, _⟩ => ⟨S4, .i32⟩
  | .hbm, ⟨5, _⟩ => ⟨S1x1x8388608, .i32⟩
  | .hbm, ⟨6, _⟩ => ⟨S8388608, .i32⟩
  | .hbm, ⟨7, _⟩ => ⟨S1x1x8388608, .i32⟩
  | .hbm, ⟨8, _⟩ => ⟨S8388608, .i32⟩
  | .hbm, ⟨9, _⟩ => ⟨S_, .f32⟩
  | .hbm, ⟨10, _⟩ => ⟨S131072, .f32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S_, .f32⟩
  | .hbm, ⟨20, _⟩ => ⟨S8388608, .f32⟩
  | .hbm, ⟨21, _⟩ => ⟨S131072, .f32⟩
  | .hbm, ⟨22, _⟩ => ⟨S1x131072x1, .f32⟩
  | .hbm, ⟨23, _⟩ => ⟨S131072, .f32⟩
  | .hbm, ⟨24, _⟩ => ⟨S131072, .f32⟩
  | .hbm, ⟨25, _⟩ => ⟨S131072, .f32⟩
  | .hbm, ⟨26, _⟩ => ⟨S_, .i32⟩
  | .hbm, ⟨27, _⟩ => ⟨S8388608, .i32⟩
  | .hbm, ⟨28, _⟩ => ⟨S8388608, .i1⟩
  | .hbm, ⟨29, _⟩ => ⟨S_, .i32⟩
  | .hbm, ⟨30, _⟩ => ⟨S8388608, .i32⟩
  | .hbm, ⟨31, _⟩ => ⟨S8388608, .i32⟩
  | .hbm, ⟨32, _⟩ => ⟨S8388608, .i32⟩
  | .hbm, ⟨33, _⟩ => ⟨S8388608x1, .i32⟩
  | .hbm, ⟨34, _⟩ => ⟨S8388608, .f32⟩
  | .hbm, ⟨35, _⟩ => ⟨S_, .f32⟩
  | .hbm, ⟨36, _⟩ => ⟨S131072, .f32⟩
  | .hbm, ⟨37, _⟩ => ⟨S_, .i32⟩
  | .hbm, ⟨38, _⟩ => ⟨S8388608, .i32⟩
  | .hbm, ⟨39, _⟩ => ⟨S8388608, .i1⟩
  | .hbm, ⟨40, _⟩ => ⟨S_, .i32⟩
  | .hbm, ⟨41, _⟩ => ⟨S8388608, .i32⟩
  | .hbm, ⟨42, _⟩ => ⟨S8388608, .i32⟩
  | .hbm, ⟨43, _⟩ => ⟨S8388608, .i32⟩
  | .hbm, ⟨44, _⟩ => ⟨S8388608x1, .i32⟩
  | .hbm, ⟨45, _⟩ => ⟨S131072, .f32⟩
  | .hbm, ⟨46, _⟩ => ⟨S1x131072, .f32⟩
  | .hbm, ⟨47, _⟩ => ⟨S1x131072, .f32⟩
  | .hbm, ⟨48, _⟩ => ⟨S2x1x16, .f32⟩
  | .hbm, ⟨49, _⟩ => ⟨S_, .f32⟩
  | .hbm, ⟨50, _⟩ => ⟨S1x16, .f32⟩
  | .hbm, ⟨51, _⟩ => ⟨S16, .f32⟩
  | .hbm, ⟨52, _⟩ => ⟨S16, .f32⟩
  | .hbm, ⟨53, _⟩ => ⟨S1x1x16, .f32⟩
  | .hbm, ⟨54, _⟩ => ⟨S4x1x16, .f32⟩
  | .hbm, ⟨55, _⟩ => ⟨S1x16, .f32⟩
  | .hbm, ⟨56, _⟩ => ⟨S_, .i32⟩
  | .hbm, ⟨57, _⟩ => ⟨S1, .i32⟩
  | .hbm, ⟨58, _⟩ => ⟨S4x1x16, .f32⟩
  | .local _ .vmem, ⟨0, _⟩ => ⟨S1x32768, .f32⟩
  | .local _ .vmem, ⟨1, _⟩ => ⟨S1x32768, .f32⟩
  | .local _ .vmem, ⟨2, _⟩ => ⟨S1x32768, .f32⟩
  | .local _ .vmem, ⟨3, _⟩ => ⟨S1x32768, .f32⟩
  | .local _ .vmem, ⟨4, _⟩ => ⟨S16x32768, .f32⟩
  | .local _ .vmem, ⟨5, _⟩ => ⟨S16x32768, .f32⟩
  | .local _ .vmem, ⟨6, _⟩ => ⟨S1x1x16, .f32⟩
  | .local _ .vmem, ⟨7, _⟩ => ⟨S1x1x16, .f32⟩
  | _, _ => ⟨S4x131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S4x2x8388608_S1x1x8388608_0_0_0 : S4x2x8388608.Slices ![0, 0, 0] S1x1x8388608
  shapeCasts_S1x1x8388608_S8388608 : S1x1x8388608.ShapeCasts S8388608
  slices_S4x2x8388608_S1x1x8388608_0_1_0 : S4x2x8388608.Slices ![0, 1, 0] S1x1x8388608
  bcast_S_S131072 : S_.BroadcastsInDim S131072 (![] : Fin 0 → Fin S131072.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  slices_S4x131072x1_S1x131072x1_0_0_0 : S4x131072x1.Slices ![0, 0, 0] S1x131072x1
  shapeCasts_S1x131072x1_S131072 : S1x131072x1.ShapeCasts S131072
  shapeCasts_S131072_S1x131072 : S131072.ShapeCasts S1x131072
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S1x1x16 : S1x16.ShapeCasts S1x1x16
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  inb_S16x32768_S16x32768_0_0 : ∀ a, (![0, 0] : Fin 2 → Nat) a + S16x32768.size a ≤ S16x32768.size a
  h_S16x32768 : 0 < S16x32768.numel
  reducesTo_S2x1x16_S1x16_d0 : S2x1x16.ReducesTo [0] S1x16
  h_S_ : 0 < S_.numel
  shapeCasts_S1x16_S16 : S1x16.ShapeCasts S16
  shapeCasts_S16_S1x1x16 : S16.ShapeCasts S1x1x16
  bcast_S1x1x16_S4x1x16_0_1_2 : S1x1x16.BroadcastsInDim S4x1x16 (![0, 1, 2] : Fin 3 → Fin S4x1x16.rank)
  shapeCasts_S16_S1x16 : S16.ShapeCasts S1x16
  bcast_S_S1 : S_.BroadcastsInDim S1 (![] : Fin 0 → Fin S1.rank)
  scatter_S131072_S8388608x1_S8388608_n_0_0_1_wf : ScatterDims.WF S131072 S8388608x1 S8388608 [] [0] [0] 1
  gather_S131072_S8388608x1_S8388608_n_0_n_n_0_1_1_wf : GatherDims.WF S131072 S8388608x1 S8388608 [] [0] [] [0] [] 1 ![1]
  dot_S1x32768_S16x32768_S1x16_1_1_0_0_n_n_wf : DotDims.WF S1x32768 S16x32768 S1x16 [1] [1] [0] [0] [] []
  scatter_S4x1x16_S1_S1x16_01_0_0_0_wf : ScatterDims.WF S4x1x16 S1 S1x16 [0, 1] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x131072.size a
  hwx0_0 : ∀ i : grid0.Coords, EltTy.bits .f32 = 32 ∨ (Rect.block (s := S1x131072) S1x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x131072.size a
  hwx0_1 : ∀ i : grid0.Coords, EltTy.bits .f32 = 32 ∨ (Rect.block (s := S1x131072) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32768.size a ≤ S16x131072.size a
  hwx0_2 : ∀ i : grid0.Coords, EltTy.bits .f32 = 32 ∨ (Rect.block (s := S16x131072) S16x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16.size a ≤ S2x1x16.size a
  hwx0_3 : ∀ i : grid0.Coords, EltTy.bits .f32 = 32 ∨ (Rect.block (s := S2x1x16) S1x1x16.size (cc0_transform_3 i) (hinb0_3 i)).WholeWords (EltTy.packing .f32)

variable [Facts₀]

def scatter_S131072_S8388608x1_S8388608_n_0_0_1 : ScatterDims S131072 S8388608x1 S8388608 where
  updateWindowDims := []
  insertedWindowDims := [0]
  scatterDimsToOperandDims := [0]
  indexVectorDim := 1
  wf := scatter_S131072_S8388608x1_S8388608_n_0_0_1_wf
def gather_S131072_S8388608x1_S8388608_n_0_n_n_0_1_1 : GatherDims S131072 S8388608x1 S8388608 where
  offsetDims := []
  collapsedSliceDims := [0]
  operandBatchingDims := []
  startIndicesBatchingDims := []
  startIndexMap := [0]
  indexVectorDim := 1
  sliceSizes := ![1]
  wf := gather_S131072_S8388608x1_S8388608_n_0_n_n_0_1_1_wf
def dot_S1x32768_S16x32768_S1x16_1_1_0_0_n_n : DotDims S1x32768 S16x32768 S1x16 where
  lhsContracting := [1]
  rhsContracting := [1]
  lhsNonContracting := [0]
  rhsNonContracting := [0]
  lhsBatch := []
  rhsBatch := []
  wf := dot_S1x32768_S16x32768_S1x16_1_1_0_0_n_n_wf
def scatter_S4x1x16_S1_S1x16_01_0_0_0 : ScatterDims S4x1x16 S1 S1x16 where
  updateWindowDims := [0, 1]
  insertedWindowDims := [0]
  scatterDimsToOperandDims := [0]
  indexVectorDim := 0
  wf := scatter_S4x1x16_S1_S1x16_01_0_0_0_wf

abbrev win0_0 : Pipeline.Window sig grid0 :=
  Pipeline.Window.ofSpec (Memref.whole main_v32) S1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x1x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x131072x1 : Shape := ⟨3, ![4, 131072, 1]⟩
abbrev S16x131072 : Shape := ⟨2, ![16, 131072]⟩
abbrev S16 : Shape := ⟨1, ![16]⟩
abbrev S4x2x8388608 : Shape := ⟨3, ![4, 2, 8388608]⟩
abbrev S4 : Shape := ⟨1, ![4]⟩
abbrev S1x1x8388608 : Shape := ⟨3, ![1, 1, 8388608]⟩
abbrev S8388608 : Shape := ⟨1, ![8388608]⟩
abbrev S_ : Shape := ⟨0, ![]⟩
abbrev S131072 : Shape := ⟨1, ![131072]⟩
abbrev S8388608x1 : Shape := ⟨2, ![8388608, 1]⟩
abbrev S131072x1 : Shape := ⟨2, ![131072, 1]⟩
abbrev S1x131072x1 : Shape := ⟨3, ![1, 131072, 1]⟩
abbrev S4x131072 : Shape := ⟨2, ![4, 131072]⟩
abbrev S8388608x2 : Shape := ⟨2, ![8388608, 2]⟩
abbrev S1 : Shape := ⟨1, ![1]⟩
abbrev S4x1x131072 : Shape := ⟨3, ![4, 1, 131072]⟩
abbrev S4x1x16 : Shape := ⟨3, ![4, 1, 16]⟩
abbrev S1x1x16 : Shape := ⟨3, ![1, 1, 16]⟩

abbrev nBuf : Space → Nat
  | .hbm => 69
  | .vmem => 0
  | .smem => 0
  | _ => 0

abbrev bufTy : (tb : Table) → Fin (tcTables nBuf tb) → BufTy
  | .hbm, ⟨0, _⟩ => ⟨S4x131072x1, .f32⟩
  | .hbm, ⟨1, _⟩ => ⟨S16x131072, .f32⟩
  | .hbm, ⟨2, _⟩ => ⟨S16, .f32⟩
  | .hbm, ⟨3, _⟩ => ⟨S4x2x8388608, .i32⟩
  | .hbm, ⟨4, _⟩ => ⟨S4, .i32⟩
  | .hbm, ⟨5, _⟩ => ⟨S1x1x8388608, .i32⟩
  | .hbm, ⟨6, _⟩ => ⟨S8388608, .i32⟩
  | .hbm, ⟨7, _⟩ => ⟨S1x1x8388608, .i32⟩
  | .hbm, ⟨8, _⟩ => ⟨S8388608, .i32⟩
  | .hbm, ⟨9, _⟩ => ⟨S_, .f32⟩
  | .hbm, ⟨10, _⟩ => ⟨S131072, .f32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S_, .f32⟩
  | .hbm, ⟨20, _⟩ => ⟨S8388608, .f32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S131072x1, .f32⟩
  | .hbm, ⟨26, _⟩ => ⟨S1x131072x1, .f32⟩
  | .hbm, ⟨27, _⟩ => ⟨S4x131072x1, .f32⟩
  | .hbm, ⟨28, _⟩ => ⟨S4x131072x1, .f32⟩
  | .hbm, ⟨29, _⟩ => ⟨S4x131072, .f32⟩
  | .hbm, ⟨30, _⟩ => ⟨S_, .f32⟩
  | .hbm, ⟨31, _⟩ => ⟨S131072, .f32⟩
  | .hbm, ⟨32, _⟩ => ⟨S_, .i32⟩
  | .hbm, ⟨33, _⟩ => ⟨S8388608, .i32⟩
  | .hbm, ⟨34, _⟩ => ⟨S8388608, .i1⟩
  | .hbm, ⟨35, _⟩ => ⟨S_, .i32⟩
  | .hbm, ⟨36, _⟩ => ⟨S8388608, .i32⟩
  | .hbm, ⟨37, _⟩ => ⟨S8388608, .i32⟩
  | .hbm, ⟨38, _⟩ => ⟨S8388608, .i32⟩
  | .hbm, ⟨39, _⟩ => ⟨S_, .i32⟩
  | .hbm, ⟨40, _⟩ => ⟨S8388608, .i32⟩
  | .hbm, ⟨41, _⟩ => ⟨S8388608, .i32⟩
  | .hbm, ⟨42, _⟩ => ⟨S8388608x1, .i32⟩
  | .hbm, ⟨43, _⟩ => ⟨S8388608x1, .i32⟩
  | .hbm, ⟨44, _⟩ => ⟨S8388608x2, .i32⟩
  | .hbm, ⟨45, _⟩ => ⟨S8388608, .f32⟩
  | .hbm, ⟨46, _⟩ => ⟨S_, .i32⟩
  | .hbm, ⟨47, _⟩ => ⟨S8388608, .i32⟩
  | .hbm, ⟨48, _⟩ => ⟨S8388608, .i1⟩
  | .hbm, ⟨49, _⟩ => ⟨S_, .i32⟩
  | .hbm, ⟨50, _⟩ => ⟨S8388608, .i32⟩
  | .hbm, ⟨51, _⟩ => ⟨S8388608, .i32⟩
  | .hbm, ⟨52, _⟩ => ⟨S8388608, .i32⟩
  | .hbm, ⟨53, _⟩ => ⟨S8388608x1, .i32⟩
  | .hbm, ⟨54, _⟩ => ⟨S131072, .f32⟩
  | .hbm, ⟨55, _⟩ => ⟨S_, .f32⟩
  | .hbm, ⟨56, _⟩ => ⟨S4x131072, .f32⟩
  | .hbm, ⟨57, _⟩ => ⟨S_, .i32⟩
  | .hbm, ⟨58, _⟩ => ⟨S1, .i32⟩
  | .hbm, ⟨59, _⟩ => ⟨S4x131072, .f32⟩
  | .hbm, ⟨60, _⟩ => ⟨S4x131072x1, .f32⟩
  | .hbm, ⟨61, _⟩ => ⟨S1x131072x1, .f32⟩
  | .hbm, ⟨62, _⟩ => ⟨S4x131072x1, .f32⟩
  | .hbm, ⟨63, _⟩ => ⟨S4x131072x1, .f32⟩
  | .hbm, ⟨64, _⟩ => ⟨S4x1x131072, .f32⟩
  | .hbm, ⟨65, _⟩ => ⟨S4x1x16, .f32⟩
  | .hbm, ⟨66, _⟩ => ⟨S1x1x16, .f32⟩
  | .hbm, ⟨67, _⟩ => ⟨S4x1x16, .f32⟩
  | .hbm, ⟨68, _⟩ => ⟨S4x1x16, .f32⟩
  | _, _ => ⟨S4x131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  slices_S4x2x8388608_S1x1x8388608_0_0_0 : S4x2x8388608.Slices ![0, 0, 0] S1x1x8388608
  shapeCasts_S1x1x8388608_S8388608 : S1x1x8388608.ShapeCasts S8388608
  slices_S4x2x8388608_S1x1x8388608_0_1_0 : S4x2x8388608.Slices ![0, 1, 0] S1x1x8388608
  bcast_S_S131072 : S_.BroadcastsInDim S131072 (![] : Fin 0 → Fin S131072.rank)
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S131072_S131072x1_0 : S131072.BroadcastsInDim S131072x1 (![0] : Fin 1 → Fin S131072x1.rank)
  bcast_S131072x1_S1x131072x1_1_2 : S131072x1.BroadcastsInDim S1x131072x1 (![1, 2] : Fin 2 → Fin S1x131072x1.rank)
  bcast_S1x131072x1_S4x131072x1_0_1_2 : S1x131072x1.BroadcastsInDim S4x131072x1 (![0, 1, 2] : Fin 3 → Fin S4x131072x1.rank)
  shapeCasts_S4x131072x1_S4x131072 : S4x131072x1.ShapeCasts S4x131072
  concatenates_S8388608x1_S8388608x1_S8388608x2_d1 : Shape.Concatenates [S8388608x1, S8388608x1] S8388608x2 1
  bcast_S_S4x131072 : S_.BroadcastsInDim S4x131072 (![] : Fin 0 → Fin S4x131072.rank)
  bcast_S_S1 : S_.BroadcastsInDim S1 (![] : Fin 0 → Fin S1.rank)
  bcast_S4x131072_S4x131072x1_0_1 : S4x131072.BroadcastsInDim S4x131072x1 (![0, 1] : Fin 2 → Fin S4x131072x1.rank)
  transposes_S4x131072x1_S4x1x131072_0_2_1 : S4x131072x1.Transposes [0, 2, 1] S4x1x131072
  bcast_S16_S1x1x16_2 : S16.BroadcastsInDim S1x1x16 (![2] : Fin 1 → Fin S1x1x16.rank)
  bcast_S1x1x16_S4x1x16_0_1_2 : S1x1x16.BroadcastsInDim S4x1x16 (![0, 1, 2] : Fin 3 → Fin S4x1x16.rank)
  scatter_S131072_S8388608x1_S8388608_n_0_0_1_wf : ScatterDims.WF S131072 S8388608x1 S8388608 [] [0] [0] 1
  gather_S4x131072_S8388608x2_S8388608_n_01_n_n_01_1_11_wf : GatherDims.WF S4x131072 S8388608x2 S8388608 [] [0, 1] [] [0, 1] [] 1 ![1, 1]
  scatter_S4x131072_S1_S131072_0_0_0_0_wf : ScatterDims.WF S4x131072 S1 S131072 [0] [0] [0] 0
  dot_S4x1x131072_S16x131072_S4x1x16_2_1_01_0_n_n_wf : DotDims.WF S4x1x131072 S16x131072 S4x1x16 [2] [1] [0, 1] [0] [] []

variable [Facts₀]

def scatter_S131072_S8388608x1_S8388608_n_0_0_1 : ScatterDims S131072 S8388608x1 S8388608 where
  updateWindowDims := []
  insertedWindowDims := [0]
  scatterDimsToOperandDims := [0]
  indexVectorDim := 1
  wf := scatter_S131072_S8388608x1_S8388608_n_0_0_1_wf
def gather_S4x131072_S8388608x2_S8388608_n_01_n_n_01_1_11 : GatherDims S4x131072 S8388608x2 S8388608 where
  offsetDims := []
  collapsedSliceDims := [0, 1]
  operandBatchingDims := []
  startIndicesBatchingDims := []
  startIndexMap := [0, 1]
  indexVectorDim := 1
  sliceSizes := ![1, 1]
  wf := gather_S4x131072_S8388608x2_S8388608_n_01_n_n_01_1_11_wf
def scatter_S4x131072_S1_S131072_0_0_0_0 : ScatterDims S4x131072 S1 S131072 where
  updateWindowDims := [0]
  insertedWindowDims := [0]
  scatterDimsToOperandDims := [0]
  indexVectorDim := 0
  wf := scatter_S4x131072_S1_S131072_0_0_0_0_wf
def dot_S4x1x131072_S16x131072_S4x1x16_2_1_01_0_n_n : DotDims S4x1x131072 S16x131072 S4x1x16 where
  lhsContracting := [2]
  rhsContracting := [1]
  lhsNonContracting := [0, 1]
  rhsNonContracting := [0]
  lhsBatch := []
  rhsBatch := []
  wf := dot_S4x1x131072_S16x131072_S4x1x16_2_1_01_0_n_n_wf

class Facts : Prop extends Facts₀ where

variable [Facts]
-- ==== Proof.LibTransposedRhs.lean ====
/-
  A matrix product whose right operand is contracted on its LAST axis, read at one entry on the extended reals.

  The product of an M x K left operand with an N x K right operand (no batch axis, both contracted on their second
  axis: every row of the left against every row of the right) has at entry (a, j) the value
  sum over k of left (a, k) * right (j, k).  On the extended reals a change of float format is the identity, so the
  reading holds whatever formats the operands carry, for a kernel's product accumulated into the f32 zero array and
  for the host's product alike.

  The contraction index has one axis of extent K; re-indexed by its one coordinate k, the operand indices at
  output (a, j) are (a, k) and (j, k).

  A record of dimension numbers printed with a program is DotDims.transposedRhs M K N whenever its six lists are
  [1], [1], [0], [0], [], [] (the seventh field is a proof), by reflexivity.
-/
import Idealize.ShloMosaic.PureOps.Ideal.Laws
import Idealize.ShloMosaic.Lib.ValueIdx
import Idealize.ShloMosaic.Lib.Pipeline.Value

noncomputable section

namespace Cert.LibTransposedRhs

open Idealize.ShloMosaic Idealize.ShloMosaic.ValueIdx

variable (M K N : Nat)

/-- The left operand's row coordinate at output index j is j's row. -/
theorem lhs_row (j : (⟨2, ![M, N]⟩ : Shape).Idx) (q : (DotDims.transposedRhs M K N).contr.Idx) :
    ((DotDims.transposedRhs M K N).lhsIdx j q 0).val = (j 0).val := rfl
/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's row coordinate at output index j is j's column. -/
theorem rhs_row (j : (⟨2, ![M, N]⟩ : Shape).Idx) (q : (DotDims.transposedRhs M K N).contr.Idx) :
    ((DotDims.transposedRhs M K N).rhsIdx j q 0).val = (j 1).val := rfl
/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The left operand's index at output (a, j) and contraction coordinate k is (a, k). -/
theorem lhsIdx_eq (a : Fin M) (j : Fin N) (k : Fin K) :
    (DotDims.transposedRhs M K N).lhsIdx (ix2 a j) ((contrEquiv1 (DotDims.transposedRhs M K N) K rfl rfl).symm k) = ix2 a k :=
  funext fun b => Fin.ext (by
    have hk := contrEquiv1_symm_val (DotDims.transposedRhs M K N) K rfl rfl k
    match b with
    | ⟨0, _⟩ => exact lhs_row M K N _ _
    | ⟨1, _⟩ => exact (lhs_col M K N _ _).trans hk)

/-- The right operand's index at output (a, j) and contraction coordinate k is (j, k). -/
theorem rhsIdx_eq (a : Fin M) (j : Fin N) (k : Fin K) :
    (DotDims.transposedRhs M K N).rhsIdx (ix2 a j) ((contrEquiv1 (DotDims.transposedRhs M K N) K rfl rfl).symm k) = ix2 j k :=
  funext fun b => Fin.ext (by
    have hk := contrEquiv1_symm_val (DotDims.transposedRhs M K N) K rfl rfl k
    match b with
    | ⟨0, _⟩ => exact rhs_row M K N _ _
    | ⟨1, _⟩ => exact (rhs_col M K N _ _).trans hk)

/-- A kernel's product of this kind into the zero array, operands of any formats, at entry (a, j). -/
theorem matmul_transposedRhs_zero_any {φ₁ φ₂ : FTy} (W : FVec Ideal ⟨2, ![M, K]⟩ φ₁) (X : FVec Ideal ⟨2, ![N, K]⟩ φ₂)
    (a : Fin M) (j : Fin N) :
    matmul (DotDims.transposedRhs M K N) none W X (constant ⟨2, ![M, N]⟩ .f32 0x00000000#32) (ix2 a j)
      = ∑ k : Fin K, (W (ix2 a k) : EReal) * (X (ix2 j k) : EReal) := by
  simp only [matmul]
  rw [Ideal.matmul_constant_zero_apply, ← Equiv.sum_comp (contrEquiv1 (DotDims.transposedRhs M K N) K rfl rfl).symm]
  refine Finset.sum_congr rfl fun k _ => ?_
  rw [lhsIdx_eq, rhsIdx_eq]

/-- The host's product of this kind, operands of any formats, at entry (a, j). -/
theorem dotGeneral_transposedRhs_any {φ₁ φ₂ : FTy} (W : FVec Ideal ⟨2, ![M, K]⟩ φ₁) (X : FVec Ideal ⟨2, ![N, K]⟩ φ₂)
    (a : Fin M) (j : Fin N) :
    Host.dotGeneral (DotDims.transposedRhs M K N) none W X (ix2 a j)
      = ∑ k : Fin K, (W (ix2 a k) : EReal) * (X (ix2 j k) : EReal) := by
  simp only [Host.dotGeneral]
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhs

end
-- ==== Proof.Pay.lean ====
/-
  The kernel body's two stored values, read at one entry on the extended reals.

  The first stored value is the zero block: the f32 zero scalar broadcast over [1, 16] and recast to [1, 1, 16].

  The second stored value is, at entry (0, 0, c),
      acc (0, 0, c) + sum over k of (agg (0, k) * rsqrt (deg (0, k))) * w (c, k):
  the degree row goes through an identity recast and a pointwise reciprocal square root, the aggregate row through an
  identity recast, the two are multiplied pointwise, the product row is contracted against every row of the weight
  block on the last axis of both (into the zero array), the [1, 1, 16] accumulator is recast to [1, 16], the two are
  added pointwise, and the sum is recast to [1, 1, 16].  A recast between [1, 1, 16] and [1, 16] only drops or adds
  the leading unit axis, so entry (0, 0, c) of one is entry (0, c) of the other.
-/
import proofs.«416099_j3487513445090_3_alg».proof.Proof.Gen.KernelIdeal.Skeleton
import proofs.«416099_j3487513445090_3_alg».proof.Proof.LibTransposedRhs
import Idealize.ShloMosaic.Lib.ValueIdx
import Idealize.ShloMosaic.Lib.Pipeline.Value
import Idealize.ShloMosaic.Lib.ValueLayout
import Idealize.ShloMosaic.PureOps.Ideal.Laws

noncomputable section

namespace Cert.Gcn.Pay

open Idealize.ShloMosaic Idealize.ShloMosaic.ValueIdx Cert.KernelIdeal Cert.KernelIdeal.Gen

/-- The printed record of dimension numbers is the product of a 1 x 32768 row block with a 16 x 32768 block, both
    contracted on their last axis. -/
theorem dot_eq : dot_S1x32768_S16x32768_S1x16_1_1_0_0_n_n = DotDims.transposedRhs 1 32768 16 := rfl

/-- The zero block at entry (0, 0, c) is zero. -/
theorem pay1_apply (c : Fin 16) : k0_pay1 (F := Ideal) (ix3 0 0 c) = (0 : EReal) := by
  unfold k0_pay1
  refine (shapeCast_ab_1ab_apply _ _ 0 0 c).trans ?_
  exact Ideal.ofBits_zero_f32

/-- The scaled aggregate row at entry (0, k): the aggregate times the reciprocal square root of the degree. -/
theorem scaled_apply (v3 v6 : FVec Ideal S1x32768 .f32) (k : Fin 32768) :
    mulf (F := Ideal) (shapeCast S1x32768 v6 shapeCasts_S1x32768_S1x32768)
        (rsqrt (shapeCast S1x32768 v3 shapeCasts_S1x32768_S1x32768)) (ix2 0 k)
      = (v6 (ix2 0 k) : EReal) * Ideal.rsqrt (v3 (ix2 0 k)) := by
  rw [shapeCast_self, shapeCast_self]
  rfl

/-- The accumulated block at entry (0, 0, c). -/
theorem pay2_apply (v3 v6 : Vec Ideal S1x32768 .f32) (v9 : Vec Ideal S16x32768 .f32) (v11 : Vec Ideal S1x1x16 .f32)
    (c : Fin 16) :
    k0_pay2 (F := Ideal) v3 v6 v9 v11 (ix3 0 0 c)
      = v11 (ix3 0 0 c) + ∑ k : Fin 32768, (v6 (ix2 0 k) * Ideal.rsqrt (v3 (ix2 0 k))) * v9 (ix2 c k) := by
  unfold k0_pay2
  refine (shapeCast_ab_1ab_apply _ _ 0 0 c).trans ?_
  refine (addf_apply _ _ _).trans ?_
  refine congrArg₂ (· + ·) (shapeCast_1ab_ab_apply v11 _ 0 c) ?_
  rw [dot_eq]
  refine (Cert.LibTransposedRhs.matmul_transposedRhs_zero_any 1 32768 16 _ v9 0 c).trans ?_
  refine Finset.sum_congr rfl fun k _ => ?_
  exact congrArg (· * v9 (ix2 c k)) (scaled_apply v3 v6 k)

end Cert.Gcn.Pay

end
-- ==== Proof.Pieces.lean ====
/-
  What the kernel body leaves in the output block, per case, as a value.

  Where the grid's second coordinate is zero the body first stores the zero block over the whole output block, loads
  the block back (so it reads the zero block), and stores the accumulated value of that over the whole block: the later
  store covers the earlier, and the block ends as the accumulated value of the zero block.  Elsewhere the body loads
  what the point before left in the block and stores the accumulated value of that over the whole block.
  Both hold for any float semantics.
-/
import proofs.«416099_j3487513445090_3_alg».proof.Proof.Gen.KernelIdeal.Frame
import Idealize.ShloMosaic.Lib.Pipeline.Value

set_option maxRecDepth 16384

noncomputable section

namespace Cert.Gcn.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The stores' rectangle starts at the block's origin. -/
theorem hz : (![0, 0, 0] : Fin 3 → Nat) = fun _ => 0 := funext fun a => by fin_cases a <;> rfl

/-- The loads' rectangles of the rank-2 blocks start at their origin. -/
theorem hz2 : (![0, 0] : Fin 2 → Nat) = fun _ => 0 := funext fun a => by fin_cases a <;> rfl

/-- Where the second grid coordinate is zero: the zero block is stored, read back, and the accumulated value of it is
    stored last over the whole block, so the block ends as the accumulated value of the zero block. -/
theorem out0_A_3_eq (c : Dev nD) (i : grid0.Coords) (arg2 : Memref sig .tc .vmem S1x32768 .f32) (harg2 : arg2.IsWhole) (arg3 : Memref sig .tc .vmem S1x32768 .f32) (harg3 : arg3.IsWhole) (arg4 : Memref sig .tc .vmem S16x32768 .f32) (harg4 : arg4.IsWhole) (arg5 : Memref sig .tc .vmem S1x1x16 .f32) (harg5 : arg5.IsWhole) (hc0 : cond0_0 i)
    (x0 : Vec F S1x32768 .f32) (x1 : Vec F S1x32768 .f32) (x2 : Vec F S16x32768 .f32) :
    out0_A_3 c i arg2 harg2 arg3 harg3 arg4 harg4 arg5 harg5 hc0 x0 x1 x2 = k0_pay2 x0 x1 x2 (k0_pay1 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x1x16) hz]
  simp only [View.readAt_eq_ld, harg2.read_unread, harg3.read_unread, harg4.read_unread,
    View.ld_unit_zero (S := S1x32768) hz2, View.ld_unit_zero (S := S16x32768) hz2,
    View.readCov_unit_zero (S := S1x1x16) _ hz]

/-- Elsewhere: the block holds what the point before left, and the one store over the whole block leaves the
    accumulated value of that. -/
theorem out0_B_3_eq (c : Dev nD) (i : grid0.Coords) (arg2 : Memref sig .tc .vmem S1x32768 .f32) (harg2 : arg2.IsWhole) (arg3 : Memref sig .tc .vmem S1x32768 .f32) (harg3 : arg3.IsWhole) (arg4 : Memref sig .tc .vmem S16x32768 .f32) (harg4 : arg4.IsWhole) (arg5 : Memref sig .tc .vmem S1x1x16 .f32) (harg5 : arg5.IsWhole) (hc0 : ¬cond0_0 i)
    (x0 : Vec F S1x32768 .f32) (x1 : Vec F S1x32768 .f32) (x2 : Vec F S16x32768 .f32) (xo3 : Vec F S1x1x16 .f32) :
    out0_B_3 c i arg2 harg2 arg3 harg3 arg4 harg4 arg5 harg5 hc0 x0 x1 x2 xo3 = k0_pay2 x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero (S := S1x1x16) hz]
  simp only [View.readAt_eq_ld, harg2.read_unread, harg3.read_unread, harg4.read_unread, harg5.read_unread,
    View.ld_unit_zero (S := S1x32768) hz2, View.ld_unit_zero (S := S16x32768) hz2,
    View.ld_unit_zero (S := S1x1x16) hz]

end Cert.Gcn.Pieces

end
-- ==== Proof.Blocks.lean ====
/-
  The three input windows' blocks, read at an entry.

  The grid has four points t = 0, 1, 2, 3 (two halves of two steps each, t = 2 * half + step). The degree row and
  the aggregated-message row are 1 x 131072 arrays cut into four blocks of 32768 columns, the weight matrix is
  16 x 131072 cut the same way, and every index map sends point t to block column t. So entry (r, k) of point t's
  block is entry (r, 32768 * t + k) of the array as the region finds it.
-/
import proofs.«416099_j3487513445090_3_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.Gcn.Blocks

open Cert.KernelIdeal Cert.KernelIdeal.Gen

variable {F : FTy → Type} [FloatOps F]
variable (m : (ℓ : Loc nD τ sig) → Buf (Elt F) ℓ)

/-- Every input window's index map sends point t to block (0, t). -/
theorem index_facts : ∀ t : Fin cfg0.N,
    (win0_0.index t 0 = 0 ∧ win0_0.index t 1 = t.val) ∧ (win0_1.index t 0 = 0 ∧ win0_1.index t 1 = t.val)
      ∧ (win0_2.index t 0 = 0 ∧ win0_2.index t 1 = t.val) :=
  (by decide +kernel : ∀ t : Fin grid0.N,
    (win0_0.index t 0 = 0 ∧ win0_0.index t 1 = t.val) ∧ (win0_1.index t 0 = 0 ∧ win0_1.index t 1 = t.val)
      ∧ (win0_2.index t 0 = 0 ∧ win0_2.index t 1 = t.val))

/-- The degree row's block at point t, at column x, is the row at column 32768 * t + x. -/
theorem deg_block_apply (c : Dev nD) (t : Fin cfg0.N) (x : S1x32768.Idx) (k : S1x131072.Idx)
    (hk0 : (k 0).val = (x 0).val) (hk1 : (k 1).val = 32768 * t.val + (x 1).val) :
    (iblk m c 0 t : Vec F S1x32768 .f32) x = (V m c main_v32 : S1x131072.Idx → Elt F .f32) k := by
  have hi := (index_facts t).1
  unfold iblk
  rw [View.read_apply]
  show V m c main_v32 _ = V m c main_v32 _
  congr 1
  funext a
  apply Fin.ext
  match a with
  | ⟨0, _⟩ => show win0_0.index t 0 * 1 + 1 * (x 0).val = (k 0).val; rw [hi.1, hk0]; omega
  | ⟨1, _⟩ => show win0_0.index t 1 * 32768 + 1 * (x 1).val = (k 1).val; rw [hi.2, hk1]; omega

/-- The aggregated-message row's block at point t, at column x, is the row at column 32768 * t + x. -/
theorem agg_block_apply (c : Dev nD) (t : Fin cfg0.N) (x : S1x32768.Idx) (k : S1x131072.Idx)
    (hk0 : (k 0).val = (x 0).val) (hk1 : (k 1).val = 32768 * t.val + (x 1).val) :
    (iblk m c 1 t : Vec F S1x32768 .f32) x = (V m c main_v33 : S1x131072.Idx → Elt F .f32) k := by
  have hi := (index_facts t).2.1
  unfold iblk
  rw [View.read_apply]
  show V m c main_v33 _ = V m c main_v33 _
  congr 1
  funext a
  apply Fin.ext
  match a with
  | ⟨0, _⟩ => show win0_1.index t 0 * 1 + 1 * (x 0).val = (k 0).val; rw [hi.1, hk0]; omega
  | ⟨1, _⟩ => show win0_1.index t 1 * 32768 + 1 * (x 1).val = (k 1).val; rw [hi.2, hk1]; omega

/-- The weight matrix's block at point t, at (row, column x), is the matrix at (row, 32768 * t + x). -/
theorem weight_block_apply (c : Dev nD) (t : Fin cfg0.N) (x : S16x32768.Idx) (k : S16x131072.Idx)
    (hk0 : (k 0).val = (x 0).val) (hk1 : (k 1).val = 32768 * t.val + (x 1).val) :
    (iblk m c 2 t : Vec F S16x32768 .f32) x = (V m c main_arg1 : S16x131072.Idx → Elt F .f32) k := by
  have hi := (index_facts t).2.2
  unfold iblk
  rw [View.read_apply]
  show V m c main_arg1 _ = V m c main_arg1 _
  congr 1
  funext a
  apply Fin.ext
  match a with
  | ⟨0, _⟩ => show win0_2.index t 0 * 16 + 1 * (x 0).val = (k 0).val; rw [hi.1, hk0]; omega
  | ⟨1, _⟩ => show win0_2.index t 1 * 32768 + 1 * (x 1).val = (k 1).val; rw [hi.2, hk1]; omega

end Cert.Gcn.Blocks

end
-- ==== Proof.SumSplit.lean ====
/-
  A sum over the 131072 columns is the sum of its four block sums.

  Column n of the row is column k of block t with n = 32768 * t + k, and this pairing of (t, k) with n is a
  bijection of Fin 4 x Fin 32768 with Fin 131072. Addition on the extended reals is commutative and associative,
  so regrouping the sum needs nothing else: no term has to be finite.
-/
import Mathlib.Algebra.BigOperators.Fin
import Mathlib.Logic.Equiv.Fin.Basic
import Mathlib.Algebra.BigOperators.Group.Finset.Basic

namespace Cert.Gcn

/-- Column k of block t, as a column of the whole row. -/
def col (t : Fin 4) (k : Fin 32768) : Fin 131072 := ⟨32768 * t.val + k.val, by omega⟩

theorem col_val (t : Fin 4) (k : Fin 32768) : (col t k).val = 32768 * t.val + k.val := rfl

/-- Blocks and columns inside a block, paired with columns of the row. -/
def colEquiv : Fin 4 × Fin 32768 ≃ Fin 131072 :=
  finProdFinEquiv.trans (finCongr rfl)

theorem colEquiv_apply (t : Fin 4) (k : Fin 32768) : colEquiv (t, k) = col t k :=
  Fin.ext (by
    show k.val + 32768 * t.val = 32768 * t.val + k.val
    omega)

/-- The sum over all columns, block by block. -/
theorem sum_blocks {M : Type*} [AddCommMonoid M] (f : Fin 131072 → M) :
    ∑ n : Fin 131072, f n = ∑ t : Fin 4, ∑ k : Fin 32768, f (col t k) := by
  rw [← Equiv.sum_comp colEquiv f, Fintype.sum_prod_type]
  simp only [colEquiv_apply]

/-- The same with the four blocks grouped as the two halves of the row, each half its two steps. -/
theorem sum_halves {M : Type*} [AddCommMonoid M] (f : Fin 131072 → M) :
    ∑ n : Fin 131072, f n
      = ((∑ k : Fin 32768, f (col 0 k)) + ∑ k : Fin 32768, f (col 1 k))
        + ((∑ k : Fin 32768, f (col 2 k)) + ∑ k : Fin 32768, f (col 3 k)) := by
  rw [sum_blocks, Fin.sum_univ_four, add_assoc]

end Cert.Gcn
-- ==== Proof.Acc.lean ====
/-
  What the output block holds after each grid point, on the extended reals.

  Write term(j, n) = (agg(n) * rsqrt(deg(n))) * w(j, n) for the contribution of column n to output class j, with
  deg, agg and w the three arrays as the region finds them, and blockSum(j, t) for the sum of term(j, .) over the
  32768 columns of block t. At an even point t the body first stores zeros and then adds its block's product, so
  the output block holds blockSum(j, t). At an odd point it adds its block's product onto what the point before
  left; the point before is even, so the block holds blockSum(j, t - 1) + blockSum(j, t).
-/
import proofs.«416099_j3487513445090_3_alg».proof.Proof.Pay
import proofs.«416099_j3487513445090_3_alg».proof.Proof.Pieces
import proofs.«416099_j3487513445090_3_alg».proof.Proof.Blocks
import proofs.«416099_j3487513445090_3_alg».proof.Proof.SumSplit

noncomputable section

open Idealize.ShloMosaic Idealize.ShloMosaic.TcCoe Idealize.SL.Sem Idealize.ShloMosaic.ValueIdx

namespace Cert.Gcn.Acc

open Cert.KernelIdeal Cert.KernelIdeal.Gen Cert.Gcn

variable (m : (ℓ : Loc nD τ sig) → Buf (Elt Ideal) ℓ)

/-- The degree row, the aggregated-message row and the weight matrix as the region finds them. -/
abbrev degRow (c : Dev nD) : FVec Ideal S1x131072 .f32 := V m c main_v32
abbrev aggRow (c : Dev nD) : FVec Ideal S1x131072 .f32 := V m c main_v33
abbrev weights (c : Dev nD) : FVec Ideal S16x131072 .f32 := V m c main_arg1

/-- Column n's contribution to class j. -/
def term (c : Dev nD) (j : Fin 16) (n : Fin 131072) : EReal :=
  (aggRow m c (ix2 0 n) * Ideal.rsqrt (degRow m c (ix2 0 n))) * weights m c (ix2 j n)

/-- The sum of the contributions of block t's columns. -/
def blockSum (c : Dev nD) (j : Fin 16) (t : Fin 4) : EReal := ∑ k : Fin 32768, term m c j (col t k)

/-- A grid point as one of the four blocks. -/
def blk (t : Fin cfg0.N) : Fin 4 := ⟨t.val, lt_of_lt_of_eq t.isLt (show cfg0.N = 4 from N_0)⟩

/-- The three input blocks at point t, at their literal types. -/
abbrev dblk (c : Dev nD) (t : Fin cfg0.N) : Vec Ideal S1x32768 .f32 := iblk m c 0 t
abbrev ablk (c : Dev nD) (t : Fin cfg0.N) : Vec Ideal S1x32768 .f32 := iblk m c 1 t
abbrev wblk (c : Dev nD) (t : Fin cfg0.N) : Vec Ideal S16x32768 .f32 := iblk m c 2 t

/-- Column k of point t's degree block is column 32768 t + k of the degree row; the same for the other two. -/
theorem dblk_apply (c : Dev nD) (t : Fin cfg0.N) (k : Fin 32768) :
    dblk m c t (ix2 0 k) = degRow m c (ix2 0 (col (blk t) k)) :=
  Blocks.deg_block_apply m c t (ix2 0 k) (ix2 0 (col (blk t) k)) rfl rfl
theorem ablk_apply (c : Dev nD) (t : Fin cfg0.N) (k : Fin 32768) :
    ablk m c t (ix2 0 k) = aggRow m c (ix2 0 (col (blk t) k)) :=
  Blocks.agg_block_apply m c t (ix2 0 k) (ix2 0 (col (blk t) k)) rfl rfl
theorem wblk_apply (c : Dev nD) (t : Fin cfg0.N) (j : Fin 16) (k : Fin 32768) :
    wblk m c t (ix2 j k) = weights m c (ix2 j (col (blk t) k)) :=
  Blocks.weight_block_apply m c t (ix2 j k) (ix2 j (col (blk t) k)) rfl rfl

/-- The block product of point t at class j is block t's sum of contributions. -/
theorem block_product (c : Dev nD) (t : Fin cfg0.N) (j : Fin 16) :
    (∑ k : Fin 32768, (ablk m c t (ix2 0 k) * Ideal.rsqrt (dblk m c t (ix2 0 k))) * wblk m c t (ix2 j k))
      = blockSum m c j (blk t) := by
  unfold blockSum term
  refine Finset.sum_congr rfl fun k _ => ?_
  rw [dblk_apply m c t k, ablk_apply m c t k, wblk_apply m c t j k]

/-- After an even point the output block holds that point's block sum. -/
theorem acc_even (c : Dev nD) (t : Fin cfg0.N) (h0 : t.val % 2 = 0) (j : Fin 16) :
    (outsAt0 m c t.val t.isLt : Vec Ideal S1x1x16 .f32) (ix3 0 0 j) = blockSum m c j (blk t) := by
  rw [outsAt0_A m c t h0, Pieces.out0_A_3_eq]
  refine (Pay.pay2_apply (dblk m c t) (ablk m c t) (wblk m c t) (k0_pay1 (F := Ideal)) j).trans ?_
  rw [Pay.pay1_apply, zero_add]
  exact block_product m c t j

/-- After an odd point the output block holds the block sums of the point before and of the point. -/
theorem acc_odd (c : Dev nD) (t : Fin cfg0.N) (h1 : t.val % 2 = 1) (j : Fin 16) :
    (outsAt0 m c t.val t.isLt : Vec Ideal S1x1x16 .f32) (ix3 0 0 j)
      = blockSum m c j ⟨t.val - 1, by have := t.isLt; have := (show cfg0.N = 4 from N_0); omega⟩ + blockSum m c j (blk t) := by
  have hN : t.val < 4 := lt_of_lt_of_eq t.isLt (show cfg0.N = 4 from N_0)
  have hlt : t.val - 1 < cfg0.N := Nat.lt_of_le_of_lt (Nat.sub_le _ _) t.isLt
  rw [outsAt0_B m c t (by omega), Pieces.out0_B_3_eq]
  refine (Pay.pay2_apply (dblk m c t) (ablk m c t) (wblk m c t) (outsAt0 m c (t.val - 1) hlt) j).trans ?_
  rw [block_product m c t j]
  have hprev := acc_even m c ⟨t.val - 1, hlt⟩ (by show (t.val - 1) % 2 = 0; omega) j
  exact congrArg (fun z => z + blockSum m c j (blk t)) hprev

end Cert.Gcn.Acc

end
-- ==== Proof.Final.lean ====
/-
  The region's output array after the run.

  The output is a 2 x 1 x 16 array; its window sends point t to block (t / 2, 0, 0), one 1 x 1 x 16 block per
  half of the row, written back after the half's second step (the odd points). After an odd point t the staging
  block holds blockSum(j, t - 1) + blockSum(j, t), so entry (p, 0, j) of the array ends at
  blockSum(j, 2 p) + blockSum(j, 2 p + 1): the sum of the contributions of half p's columns, in two blocks.
  The two blocks written back tile the array.
-/
import proofs.«416099_j3487513445090_3_alg».proof.Proof.Acc

noncomputable section

open Idealize.ShloMosaic Idealize.ShloMosaic.TcCoe Idealize.SL.Sem Idealize.ShloMosaic.ValueIdx
open Idealize.ShloMosaic.Pipeline (Dat)

namespace Cert.Gcn.Final

open Cert.KernelIdeal Cert.KernelIdeal.Gen Cert.Gcn Cert.Gcn.Acc

variable (m : (ℓ : Loc nD τ sig) → Buf (Elt Ideal) ℓ)

/-- Block sums depend on the class and the block only through their numbers. -/
theorem blockSum_congr (c : Dev nD) {j j' : Fin 16} {t t' : Fin 4} (hj : j.val = j'.val) (ht : t.val = t'.val) :
    blockSum m c j t = blockSum m c j' t' := by
  obtain rfl := Fin.ext hj; obtain rfl := Fin.ext ht; rfl

/-- The output array: at (p, 0, j) the two block sums of half p. -/
def out2 (c : Dev nD) : FVec Ideal S2x1x16 .f32 := fun i =>
  have h0 : (i 0).val < 2 := (i 0).isLt
  have h2 : (i 2).val < 16 := (i 2).isLt
  blockSum m c ⟨(i 2).val, h2⟩ ⟨2 * (i 0).val, by omega⟩ + blockSum m c ⟨(i 2).val, h2⟩ ⟨2 * (i 0).val + 1, by omega⟩

/-- The output window's index map sends point t to block (t / 2, 0, 0). -/
theorem out_index : ∀ t : Fin cfg0.N, win0_3.index t 0 = t.val / 2 ∧ win0_3.index t 1 = 0 ∧ win0_3.index t 2 = 0 :=
  (by decide +kernel : ∀ t : Fin grid0.N, win0_3.index t 0 = t.val / 2 ∧ win0_3.index t 1 = 0 ∧ win0_3.index t 2 = 0)

/-- An entry of a 1 x 1 x 16 block is its entry at (0, 0, last coordinate). -/
theorem block_entry (X : Vec Ideal S1x1x16 .f32) (y : S1x1x16.Idx) :
    X y = X (ix3 0 0 ⟨(y 2).val, (y 2).isLt⟩) := by
  congr 1
  funext a
  apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => rfl

/-- The output array at an entry whose half is p and whose class is j. -/
theorem out2_apply (c : Dev nD) (i : S2x1x16.Idx) (p : Fin 2) (j : Fin 16) (h0 : (i 0).val = p.val) (h2 : (i 2).val = j.val) :
    out2 m c i = blockSum m c j ⟨2 * p.val, by omega⟩ + blockSum m c j ⟨2 * p.val + 1, by omega⟩ := by
  unfold out2
  dsimp only
  exact congrArg₂ (fun a b : EReal => a + b)
    (blockSum_congr m c (j := ⟨(i 2).val, (i 2).isLt⟩) (j' := j) (t := ⟨2 * (i 0).val, _⟩) (t' := ⟨2 * p.val, _⟩) h2 (by show 2 * (i 0).val = 2 * p.val; omega))
    (blockSum_congr m c (j := ⟨(i 2).val, (i 2).isLt⟩) (j' := j) (t := ⟨2 * (i 0).val + 1, _⟩) (t' := ⟨2 * p.val + 1, _⟩) h2 (by show 2 * (i 0).val + 1 = 2 * p.val + 1; omega))

/-- A staging block X whose entries are the output array G's entries of one half, read where the half's block lies. -/
theorem cut_eq_read (G : FVec Ideal S2x1x16 .f32) (X : Vec Ideal S1x1x16 .f32) (t : Fin cfg0.N)
    (h : ∀ y : S1x1x16.Idx, X y = G (((cfg0.win 3).blk t).view.emb y)) :
    (cfg0.win 3).cut (grid0.coords t) X = ((cfg0.win 3).blk t).view.read (Elt Ideal) G := by
  funext y
  show X y = G (((cfg0.win 3).blk t).view.emb y)
  exact h y

/-- What an odd point writes back is its block of the output array. -/
theorem flushed_eq (c : Dev nD) (t : Fin cfg0.N) (hf : (cfg0.win 3).flush t = true) :
    (dats m 0 c).flushed 3 t = ((cfg0.win 3).blk t).view.read (Elt Ideal) (out2 m c) := by
  have h1 : t.val % 2 = 1 := (flush0_3 t).mp hf
  have hN : t.val < 4 := lt_of_lt_of_eq t.isLt (show cfg0.N = 4 from N_0)
  obtain ⟨e0, e1, e2⟩ := out_index t
  show (cfg0.win 3).cut (grid0.coords t) ((dats m 0 c).after 3 t) = _
  rw [after0_3]
  refine cut_eq_read (out2 m c) (outsAt0 m c t.val t.isLt) t fun y => ?_
  have hy0 : (y 0).val < 1 := (y 0).isLt
  have hy2 : (y 2).val < 16 := (y 2).isLt
  have q0 : ((((cfg0.win 3).blk t).view.emb y) 0).val = t.val / 2 := by
    show win0_3.index t 0 * 1 + 1 * (y 0).val = _; rw [e0]; omega
  have q2 : ((((cfg0.win 3).blk t).view.emb y) 2).val = (y 2).val := by
    show win0_3.index t 2 * 16 + 1 * (y 2).val = _; rw [e2]; omega
  rw [out2_apply m c _ ⟨t.val / 2, by omega⟩ ⟨(y 2).val, hy2⟩ q0 q2,
    block_entry (outsAt0 m c t.val t.isLt) y, acc_odd m c t h1]
  exact congrArg₂ (fun a b : EReal => a + b)
    (blockSum_congr m c rfl (by show t.val - 1 = 2 * (t.val / 2); omega))
    (blockSum_congr m c rfl (by show t.val = 2 * (t.val / 2) + 1; omega))

/-- Every entry of the output array lies in the block some odd point writes back. -/
theorem cover (i : S2x1x16.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 16 := (i 2).isLt
  rcases (by omega : (i 0).val = 0 ∨ (i 0).val = 1) with hp | hp
  · refine ⟨t0_1, (flush0_3 t0_1).mpr rfl, ?_⟩
    show i ∈ ((View.whole main_v34).slice (win0_3.rect t0_1)).set
    rw [View.set_slice_whole, Rect.mem_set_unit]
    intro a
    match a with
    | ⟨0, _⟩ =>
      show win0_3.index t0_1 0 * win0_3.size 0 ≤ (i 0 : Nat) ∧ (i 0 : Nat) < win0_3.index t0_1 0 * win0_3.size 0 + win0_3.xsize (grid0.coords t0_1) 0
      rw [show win0_3.index t0_1 0 * win0_3.size 0 = 0 from by decide +kernel, show win0_3.xsize (grid0.coords t0_1) 0 = 1 from by decide +kernel]; omega
    | ⟨1, _⟩ =>
      show win0_3.index t0_1 1 * win0_3.size 1 ≤ (i 1 : Nat) ∧ (i 1 : Nat) < win0_3.index t0_1 1 * win0_3.size 1 + win0_3.xsize (grid0.coords t0_1) 1
      rw [show win0_3.index t0_1 1 * win0_3.size 1 = 0 from by decide +kernel, show win0_3.xsize (grid0.coords t0_1) 1 = 1 from by decide +kernel]; omega
    | ⟨2, _⟩ =>
      show win0_3.index t0_1 2 * win0_3.size 2 ≤ (i 2 : Nat) ∧ (i 2 : Nat) < win0_3.index t0_1 2 * win0_3.size 2 + win0_3.xsize (grid0.coords t0_1) 2
      rw [show win0_3.index t0_1 2 * win0_3.size 2 = 0 from by decide +kernel, show win0_3.xsize (grid0.coords t0_1) 2 = 16 from by decide +kernel]; omega
  · refine ⟨t0_3, (flush0_3 t0_3).mpr rfl, ?_⟩
    show i ∈ ((View.whole main_v34).slice (win0_3.rect t0_3)).set
    rw [View.set_slice_whole, Rect.mem_set_unit]
    intro a
    match a with
    | ⟨0, _⟩ =>
      show win0_3.index t0_3 0 * win0_3.size 0 ≤ (i 0 : Nat) ∧ (i 0 : Nat) < win0_3.index t0_3 0 * win0_3.size 0 + win0_3.xsize (grid0.coords t0_3) 0
      rw [show win0_3.index t0_3 0 * win0_3.size 0 = 1 from by decide +kernel, show win0_3.xsize (grid0.coords t0_3) 0 = 1 from by decide +kernel]; omega
    | ⟨1, _⟩ =>
      show win0_3.index t0_3 1 * win0_3.size 1 ≤ (i 1 : Nat) ∧ (i 1 : Nat) < win0_3.index t0_3 1 * win0_3.size 1 + win0_3.xsize (grid0.coords t0_3) 1
      rw [show win0_3.index t0_3 1 * win0_3.size 1 = 0 from by decide +kernel, show win0_3.xsize (grid0.coords t0_3) 1 = 1 from by decide +kernel]; omega
    | ⟨2, _⟩ =>
      show win0_3.index t0_3 2 * win0_3.size 2 ≤ (i 2 : Nat) ∧ (i 2 : Nat) < win0_3.index t0_3 2 * win0_3.size 2 + win0_3.xsize (grid0.coords t0_3) 2
      rw [show win0_3.index t0_3 2 * win0_3.size 2 = 0 from by decide +kernel, show win0_3.xsize (grid0.coords t0_3) 2 = 16 from by decide +kernel]; omega

/-- The output array after the run. -/
theorem final (c : Dev nD) : (dats m 0 c).arrAt 3 cfg0.N = out2 m c :=
  (dats m 0 c).arrAt_eq_of_cover 3 (out2 m c) (flushed_eq m c) (cover)

end Cert.Gcn.Final

end
-- ==== Proof.Tail.lean ====
import proofs.«416099_j3487513445090_3_alg».proof.Proof.Gen.KernelIdeal.Frame
import Idealize.ShloMosaic.Lib.StableHlo.Run
import Idealize.ShloMosaic.Lib.Pipeline.FrameSuffix
import Idealize.ShloMosaic.Lib.Pipeline.Value
import Idealize.ShloMosaic.Lib.ValueIdx
import Idealize.ShloMosaic.Lib.IdealHost
import Idealize.ShloMosaic.PureOps.Ideal.Laws

/-!
# What the program does with the region's output

The region leaves an array `o` of shape [2, 1, 16]: two partial results of 16 values each. After it the program

* sums `o` over its first axis, starting from zero, and adds the bias `bias` (16 values);
* builds a [4, 1, 16] array every row of which is the bias;
* SETS row 0 of that array to the sum (a scatter of the one [1, 16] update at the one start index 0, whose
  combining function returns the update).

`tail o bias` is that result as one pure term. `result_eq` says the program's result buffer holds it, with `o`
the array the region's last window wrote; `tail_apply` reads it at an index over the extended reals: row 0 is
`o[0] + o[1] + bias`, rows 1, 2 and 3 are the bias.
-/

noncomputable section

namespace Cert.Gcn.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open scoped BigOperators

variable {F : FTy → Type} [FloatOps F]

/-- The ten operations after the region as one function of the region's output `o` and the bias. -/
def tail (o : FVec F S2x1x16 .f32) (bias : FVec F S16 .f32) : FVec F S4x1x16 .f32 :=
  Host.scatter scatter_S4x1x16_S1_S1x16_01_0_0_0 (fun _ b => b)
    (broadcastInDim S4x1x16 ![0, 1, 2] bcast_S1x1x16_S4x1x16_0_1_2 (shapeCast S1x1x16 bias shapeCasts_S16_S1x1x16))
    (broadcastInDim S1 ![] bcast_S_S1 (constantI S_ 32 0#32))
    (shapeCast S1x16 (addf (shapeCast S16 (Host.reduceAdd o (constant S_ .f32 0x00000000#32) reducesTo_S2x1x16_S1x16_d0 h_S_) shapeCasts_S1x16_S16) bias) shapeCasts_S16_S1x16)

variable (m : (ℓ : Loc nD τ sig) → Buf (Elt F) ℓ)

/-- The result buffer after the last operation: the tail of the array the region's output window wrote and of the
    bias as launched (no operation writes the bias). -/
theorem result_eq (c : Dev nD) :
    Pipeline.afterTail₀ cfgs (dats m) 0 (V0 m) [hostOps1] c main_v42
      = tail (F := F) ((dats m 0 c).arrAt 3 cfg0.N) (m ((c.tc : Thread nD τ).loc main_arg2)) := by
  unfold Pipeline.afterTail₀
  show StableHlo.after hostOps1 _ (Proc.devRef .tc main_v42) = _
  after_results
  rw [Pipeline.withArrays_arr spec0 launch0.win.arr_inj c _ _ 3,
    Pipeline.withArrays_of_ne _ c (V0 m c) _ main_arg2 (by exact (by decide : ∀ w, Pipeline.arrRef spec0 w ≠ main_arg2))]
  rw [show V0 m c (Proc.devRef .tc main_arg2) = m ((c.tc : Thread nD τ).loc main_arg2) from V_main_arg2 m c]
  rfl

/-! ## A scatter that sets: the fold over the update positions

`Host.scatter d (fun _ b => b) x idx upd` is a left fold over the update positions in row-major order; each step
overwrites the element its update lands on. When every update lands inside the operand, at `g n` for position `n`,
and no two land on the same element (`g` injective), the result holds update `n` at `g n` and the operand's own value
everywhere else. -/

section Fold
variable {ι β γ : Type} [DecidableEq β] (g : ι → β) (v : ι → γ)

/-- An element no position of the list lands on keeps its value through the fold. -/
theorem foldl_set_ne (i : β) : ∀ (l : List ι) (r : β → γ), (∀ n ∈ l, g n ≠ i) →
    l.foldl (fun r n i' => if i' = g n then v n else r i') r i = r i := by
  intro l
  induction l with
  | nil => intro r _; rfl
  | cons a t ih =>
    intro r h
    rw [List.foldl_cons, ih _ (fun n hn => h n (List.mem_cons_of_mem _ hn))]
    exact if_neg (fun e => h a List.mem_cons_self e.symm)

/-- With distinct positions landing on distinct elements, the element position `n` lands on ends at `v n`: it is set
    when the fold reaches `n`, and no later position touches it. -/
theorem foldl_set_eq (hinj : Function.Injective g) (n : ι) : ∀ (l : List ι) (r : β → γ), l.Nodup → n ∈ l →
    l.foldl (fun r n i' => if i' = g n then v n else r i') r (g n) = v n := by
  intro l
  induction l with
  | nil => intro r _ hn; exact absurd hn List.not_mem_nil
  | cons a t ih =>
    intro r hnd hn
    rw [List.foldl_cons]
    rcases List.mem_cons.1 hn with rfl | hn'
    · rw [foldl_set_ne g v (g n) t _ (fun n' hn' e => (List.nodup_cons.1 hnd).1 (hinj e ▸ hn'))]
      exact if_pos rfl
    · exact ih _ (List.nodup_cons.1 hnd).2 hn'
end Fold

section Scatter
variable {s si u : Shape} {w : Nat} {α : Type} (d : ScatterDims s si u) (x : s.Idx → α) (idx : IVec si w) (upd : u.Idx → α)
  (g : Fin u.numel → s.Idx) (hg : ∀ n, d.resultIdx? (u.rowMajor.symm n) idx = some (g n))

include hg in
/-- When update position `n` lands at `g n`, the setting scatter is the fold that overwrites `g n` by update `n`. -/
theorem scatter_set_eq_foldl : Host.scatter d (fun _ b => b) x idx upd
    = (List.finRange u.numel).foldl (fun r n i' => if i' = g n then upd (u.rowMajor.symm n) else r i') x := by
  unfold Host.scatter
  congr 1
  funext r n
  rw [hg n]

include hg in
/-- The setting scatter at the element update `n` lands on. -/
theorem scatter_set_at (hinj : Function.Injective g) (n : Fin u.numel) :
    Host.scatter d (fun _ b => b) x idx upd (g n) = upd (u.rowMajor.symm n) := by
  rw [scatter_set_eq_foldl d x idx upd g hg]
  exact foldl_set_eq g (fun n => upd (u.rowMajor.symm n)) hinj n _ x (List.nodup_finRange _) (List.mem_finRange n)

include hg in
/-- The setting scatter at an element no update lands on. -/
theorem scatter_set_off (i : s.Idx) (hi : ∀ n, g n ≠ i) :
    Host.scatter d (fun _ b => b) x idx upd i = x i := by
  rw [scatter_set_eq_foldl d x idx upd g hg]
  exact foldl_set_ne g (fun n => upd (u.rowMajor.symm n)) i _ x (fun n _ => hi n)
end Scatter

/-! ## This program's scatter: the [1, 16] update lands on row 0

The update has window axes 0 and 1, the operand's axis 0 is inserted, and the one start index names operand axis 0.
With start index 0, update element (0, k) lands on operand element (0, 0, k). -/

section Row0

open Idealize.ShloMosaic.ValueIdx

theorem numel_S1x16 : S1x16.numel = 16 := by decide

/-- The update index at row-major position `n` is (0, n). -/
theorem upd_coords (n : Fin S1x16.numel) :
    ((S1x16.rowMajor.symm n) 0).val = 0 ∧ ((S1x16.rowMajor.symm n) 1).val = n.val := by
  have h := Shape.rowMajor_val_two (S1x16.rowMajor.symm n)
  rw [Equiv.apply_symm_apply] at h
  have h' : n.val = ((S1x16.rowMajor.symm n) 0).val * 16 + ((S1x16.rowMajor.symm n) 1).val := h
  have h0 : ((S1x16.rowMajor.symm n) 0).val < 1 := ((S1x16.rowMajor.symm n) 0).isLt
  constructor <;> omega

theorem symm_eq (n : Fin S1x16.numel) : S1x16.rowMajor.symm n = ix2 (0 : Fin 1) (n.cast numel_S1x16) := by
  obtain ⟨hj0, hj1⟩ := upd_coords n
  rw [eq_ix2 (S1x16.rowMajor.symm n)]
  congr 1
  · exact Fin.ext hj0
  · exact Fin.ext hj1

/-- With every start word zero the window starts at 0 on every operand axis (axis 0 reads the word, the others are
    not named by the map). -/
theorem start_eq (idx : IVec S1 32) (hidx : ∀ k, idx k = 0#32) (j : S1x16.Idx) (a : Fin 3) :
    scatter_S4x1x16_S1_S1x16_01_0_0_0.start j idx a = 0 := by
  unfold ScatterDims.start
  split
  · rw [hidx]; rfl
  · rfl

/-- The window coordinate: nothing on the inserted axis 0, the update's two coordinates on axes 1 and 2. -/
theorem window_eq (j : S1x16.Idx) :
    scatter_S4x1x16_S1_S1x16_01_0_0_0.window j 0 = 0 ∧ scatter_S4x1x16_S1_S1x16_01_0_0_0.window j 1 = (j 0).val
      ∧ scatter_S4x1x16_S1_S1x16_01_0_0_0.window j 2 = (j 1).val := ⟨rfl, rfl, rfl⟩

/-- Update position `n` lands on operand element (0, 0, n). -/
theorem result_at (idx : IVec S1 32) (hidx : ∀ k, idx k = 0#32) (n : Fin S1x16.numel) :
    scatter_S4x1x16_S1_S1x16_01_0_0_0.resultIdx? (S1x16.rowMajor.symm n) idx = some (ix3 0 0 (n.cast numel_S1x16)) := by
  obtain ⟨hj0, hj1⟩ := upd_coords n
  obtain ⟨hw0, hw1, hw2⟩ := window_eq (S1x16.rowMajor.symm n)
  have hs := start_eq idx hidx (S1x16.rowMajor.symm n)
  have hsum : ∀ a : Fin 3, scatter_S4x1x16_S1_S1x16_01_0_0_0.start (S1x16.rowMajor.symm n) idx a
        + (scatter_S4x1x16_S1_S1x16_01_0_0_0.window (S1x16.rowMajor.symm n) a : ℤ)
      = ((ix3 (0 : Fin 4) (0 : Fin 1) (n.cast numel_S1x16) a).val : ℤ) := by
    intro a
    rw [hs a, zero_add]
    match a with
    | ⟨0, _⟩ => exact congrArg Nat.cast hw0
    | ⟨1, _⟩ => exact congrArg Nat.cast (hw1.trans hj0)
    | ⟨2, _⟩ => exact congrArg Nat.cast (hw2.trans hj1)
  unfold ScatterDims.resultIdx?
  rw [dif_pos (fun a => by rw [hsum a]; exact ⟨Int.natCast_nonneg _, Int.ofNat_lt.2 (ix3 (0 : Fin 4) (0 : Fin 1) (n.cast numel_S1x16) a).isLt⟩)]
  congr 1
  funext a
  apply Fin.ext
  show (scatter_S4x1x16_S1_S1x16_01_0_0_0.start (S1x16.rowMajor.symm n) idx a
    + (scatter_S4x1x16_S1_S1x16_01_0_0_0.window (S1x16.rowMajor.symm n) a : ℤ)).toNat = _
  rw [hsum a, Int.toNat_natCast]

/-- Distinct update positions land on distinct elements. -/
theorem result_inj : Function.Injective (fun n : Fin S1x16.numel => (ix3 (0 : Fin 4) (0 : Fin 1) (n.cast numel_S1x16) : S4x1x16.Idx)) := by
  intro n n' h
  have := congrFun h 2
  exact Fin.ext (Fin.mk.inj_iff.1 this)

/-- The one start index is the zero word. -/
theorem idx_zero (k : S1.Idx) : broadcastInDim S1 ![] bcast_S_S1 (constantI S_ 32 0#32) k = 0#32 := rfl

variable (o : FVec Ideal S2x1x16 .f32) (bias : FVec Ideal S16 .f32)

/-- The update row at column `j`, over the extended reals: zero plus the two partial results, plus the bias. -/
theorem upd_apply (j : Fin 16) :
    shapeCast S1x16 (addf (shapeCast S16 (Host.reduceAdd o (constant (F := Ideal) S_ .f32 0x00000000#32) reducesTo_S2x1x16_S1x16_d0 h_S_) shapeCasts_S1x16_S16) bias) shapeCasts_S16_S1x16 (ix2 (0 : Fin 1) j)
      = (o (ix3 0 0 j) + o (ix3 1 0 j)) + bias (ix1 j) := by
  rw [shapeCast_apply _ shapeCasts_S16_S1x16 (ix2 (0 : Fin 1) j) (ix1 j) (by rw [Shape.rowMajor_val_one, Shape.rowMajor_val_two]; show j.val = 0 * 16 + j.val; omega)]
  rw [addf_apply]
  rw [shapeCast_apply _ shapeCasts_S1x16_S16 (ix1 j) (ix2 (0 : Fin 1) j) (by rw [Shape.rowMajor_val_one, Shape.rowMajor_val_two]; show 0 * 16 + j.val = j.val; omega)]
  rw [hostReduceAdd_apply]
  have hR : S2x1x16.Reduces [0] S1x16 := by decide
  rw [Ideal.hostReduceAdd_single reducesTo_S2x1x16_S1x16_d0 hR]
  have hl : ∀ k : Fin 2, hR.lift (ix2 (0 : Fin 1) j) k = ix3 k (0 : Fin 1) j := fun k => by
    funext a
    match a with
    | ⟨0, _⟩ => exact Fin.ext rfl
    | ⟨1, _⟩ => exact Fin.ext rfl
    | ⟨2, _⟩ => exact Fin.ext rfl
  have hsum : ∑ k : Fin (S2x1x16.size 0), o (hR.lift (ix2 (0 : Fin 1) j) k) = o (ix3 0 0 j) + o (ix3 1 0 j) := by
    show ∑ k : Fin 2, o (hR.lift (ix2 (0 : Fin 1) j) k) = _
    rw [Fin.sum_univ_two, hl 0, hl 1]
  rw [hsum, constant_apply, Ideal.ofBits_zero_f32, zero_add]

/-- The operand: every row is the bias. -/
theorem opnd_apply (b : Fin 4) (j : Fin 16) :
    broadcastInDim S4x1x16 ![0, 1, 2] bcast_S1x1x16_S4x1x16_0_1_2 (shapeCast S1x1x16 bias shapeCasts_S16_S1x1x16) (ix3 b (0 : Fin 1) j)
      = bias (ix1 j) := by
  rw [broadcastInDim_apply ![0, 1, 2] bcast_S1x1x16_S4x1x16_0_1_2 _ (ix3 b (0 : Fin 1) j) (ix3 (0 : Fin 1) (0 : Fin 1) j) (fun a => by
    match a with
    | ⟨0, _⟩ => rfl
    | ⟨1, _⟩ => rfl
    | ⟨2, _⟩ => rfl)]
  rw [shapeCast_apply _ shapeCasts_S16_S1x1x16 (ix3 (0 : Fin 1) (0 : Fin 1) j) (ix1 j) (by rw [Shape.rowMajor_val_one, Shape.rowMajor_val_three]; show j.val = (0 * 1 + 0) * 16 + j.val; omega)]

/-- The tail at an index, over the extended reals: row 0 is the sum of the two partial results plus the bias, every
    other row is the bias. -/
theorem tail_apply (b : Fin 4) (j : Fin 16) :
    tail (F := Ideal) o bias (ValueIdx.ix3 b 0 j)
      = if b = 0 then (o (ValueIdx.ix3 0 0 j) + o (ValueIdx.ix3 1 0 j)) + bias (ValueIdx.ix1 j) else bias (ValueIdx.ix1 j) := by
  unfold tail
  by_cases hb : b = 0
  · subst hb
    rw [if_pos rfl]
    have h := scatter_set_at scatter_S4x1x16_S1_S1x16_01_0_0_0
      (broadcastInDim S4x1x16 ![0, 1, 2] bcast_S1x1x16_S4x1x16_0_1_2 (shapeCast S1x1x16 bias shapeCasts_S16_S1x1x16))
      (broadcastInDim S1 ![] bcast_S_S1 (constantI S_ 32 0#32))
      (shapeCast S1x16 (addf (shapeCast S16 (Host.reduceAdd o (constant (F := Ideal) S_ .f32 0x00000000#32) reducesTo_S2x1x16_S1x16_d0 h_S_) shapeCasts_S1x16_S16) bias) shapeCasts_S16_S1x16)
      _ (result_at _ idx_zero) result_inj (j.cast numel_S1x16.symm)
    rw [symm_eq] at h
    exact h.trans (upd_apply o bias j)
  · rw [if_neg hb]
    rw [scatter_set_off scatter_S4x1x16_S1_S1x16_01_0_0_0 _ _ _ _ (result_at _ idx_zero) (ix3 b (0 : Fin 1) j) (fun n e => hb (congrFun e 0).symm)]
    exact opnd_apply bias b j

end Row0

end Cert.Gcn.Tail

end
-- ==== Proof.KernelRun.lean ====
/-
  The kernel program's run, with its result array named.

  Every weakly fair execution of the kernel program terminates without a fault; its result array ends at the host
  tail applied to the region's output array (the two halves' sums) and fc_b, and its argument arrays end unchanged.
-/
import proofs.«416099_j3487513445090_3_alg».proof.Proof.Final
import proofs.«416099_j3487513445090_3_alg».proof.Proof.Tail

noncomputable section

open Idealize.ShloMosaic Idealize.ShloMosaic.TcCoe Idealize.SL.Sem
open Idealize.ShloMosaic.Pipeline (Dat)

namespace Cert.Gcn.KernelRun

open Cert.KernelIdeal Cert.KernelIdeal.Gen Cert.Gcn

variable (m : (ℓ : Loc nD τ sig) → Buf (Elt Ideal) ℓ) (ρ : Dev nD → PrngReg)

/-- The result array after the host tail, in terms of the region's output array. -/
theorem result_final (c : Dev nD) :
    Pipeline.afterTail₀ cfgs (dats m) 0 (V0 m) [hostOps1] c main_v42
      = Tail.tail (F := Ideal) (Final.out2 m c) (m ((c.tc : Thread nD τ).loc main_arg2)) := by
  rw [Tail.result_eq m c, Final.final m c]

theorem run : θ_run defs (onTc (τ := τ) (main (F := Ideal))) ⟨m, fun _ => 0, ρ⟩ (fun r => ∀ c : Dev nD,
      r.2.mem ((c.tc : Thread nD τ).loc main_v42) = Tail.tail (F := Ideal) (Final.out2 m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v42 (Pipeline.mem_restRefs_of main_v42 (by decide) (by decide))).trans (result_final m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Gcn.KernelRun

end
-- ==== Proof.RefValue.lean ====
/-
  The reference's result read at one entry, on the extended reals.

  The reference computes, from node features x0 : [4, 131072, 1], weights fc_w : [16, 131072], bias fc_b : [16] and
  an edge list edges : [4, 2, 8388608] of 32-bit words, with deg the array of node degrees and
  d(n) = deg(n) ^ (-1/2):
    x[b, n]  = x0[b, n, 0] * d(n)                       the scaled features,
    msg(e)   = x[0, clamp(dst(e))]                      one message per edge, read off batch 0 at the edge's
                                                        destination word (wrapped once when negative, then read
                                                        signed and clamped into the node range, as a gather clamps),
    agg      = the messages summed per source node      (kept as the opaque array the reference names),
    out[b, 0, c] = (sum over n of ((agg(n) if b = 0 else 0) * d(n)) * fc_w[c, n]) + fc_b[c].

  Three of the reference's operations choose WHICH element they read or write from the values of an operand, and are
  read here by hand:
    * the concatenation of two [8388608, 1] columns into the [8388608, 2] array of start indices: column 0 is the
      constant word 0, column 1 the wrapped destination word;
    * the gather of the [4, 131072] table at those start indices (both operand axes collapsed and start-indexed,
      slice sizes 1, 1): result position e reads the table at (clamp of word (e, 0) into [0, 3], clamp of word (e, 1)
      into [0, 131071]);
    * the scatter that SETS row 0 of a zero [4, 131072] array to the aggregated messages: a left fold of
      single-entry writes over the 131072 update positions, position n writing entry (0, n); distinct positions
      write distinct entries, so entry (0, k) ends as the update at k and every other row is untouched. The fold
      is read through an invariant on a list of writes, never by running it.
  Every other operation reads one element of each operand at an index computed from the literal shapes; those
  readings are chained, and the composed index maps identified with plain coordinates.

  The two sums over edges (the node degrees and the aggregated messages) are never opened.
-/
import proofs.«416099_j3487513445090_3_alg».proof.Proof.Gen.ReferenceIdeal.Read
import Idealize.ShloMosaic.Lib.ValueIdx
import Idealize.ShloMosaic.Lib.Pipeline.Value
import Idealize.ShloMosaic.PureOps.Ideal.Laws

noncomputable section

namespace Cert.Gcn.Ref

open Idealize.ShloMosaic Idealize.ShloMosaic.ValueIdx Cert.ReferenceIdeal Cert.ReferenceIdeal.Gen Cert.ReferenceIdeal.Read

/-- A start-index word read signed and clamped into the node range (StableHLO's gather clamps). -/
def node (w : BitVec 32) : Fin 131072 := ⟨min w.toInt.toNat 131071, by omega⟩

section Gather
variable {α : Type}

/-- A start-index word read signed and clamped into the four batch rows. -/
def row (w : BitVec 32) : Fin 4 := ⟨min w.toInt.toNat 3, by omega⟩

/-- The zero word is row 0. -/
theorem row_zero : row 0#32 = 0 := by decide

/-- The gather of a [4, 131072] table at an [8388608, 2] array of start indices, both table axes collapsed and
    start-indexed with slice sizes 1, 1 and the index vector on axis 1: result position e reads the table at the
    row word (e, 0) and the column word (e, 1), each read signed and clamped into its axis. There is no batching
    axis and no offset axis, so on each table axis the operand index is the clamped start alone. -/
theorem gather_pair_apply (x : S4x131072.Idx → α) (idx : IVec S8388608x2 32) (e : Fin 8388608) :
    Host.gather gather_S4x131072_S8388608x2_S8388608_n_01_n_n_01_1_11 x idx (ix1 e)
      = x (ix2 (row (idx (ix2 e 0))) (node (idx (ix2 e 1)))) := by
  unfold Host.gather
  congr 1
  funext a
  refine Fin.ext ?_
  match a with
  | ⟨0, _⟩ =>
    show gather_S4x131072_S8388608x2_S8388608_n_01_n_n_01_1_11.start (ix1 e) idx 0
      + gather_S4x131072_S8388608x2_S8388608_n_01_n_n_01_1_11.batchCoord (ix1 e) 0
      + gather_S4x131072_S8388608x2_S8388608_n_01_n_n_01_1_11.offCoord (ix1 e) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S4x131072_S8388608x2_S8388608_n_01_n_n_01_1_11.startIndexMap by decide)]
    have hsi : gather_S4x131072_S8388608x2_S8388608_n_01_n_n_01_1_11.siIdx (ix1 e)
        ⟨List.idxOf (0 : Fin 2) gather_S4x131072_S8388608x2_S8388608_n_01_n_n_01_1_11.startIndexMap,
          List.idxOf_lt_length_iff.2 (by decide)⟩ = ix2 e 0 := by
      funext b; refine Fin.ext ?_
      match b with
      | ⟨0, _⟩ => rfl
      | ⟨1, _⟩ => rfl
    rw [hsi]
    rfl
  | ⟨1, _⟩ =>
    show gather_S4x131072_S8388608x2_S8388608_n_01_n_n_01_1_11.start (ix1 e) idx 1
      + gather_S4x131072_S8388608x2_S8388608_n_01_n_n_01_1_11.batchCoord (ix1 e) 1
      + gather_S4x131072_S8388608x2_S8388608_n_01_n_n_01_1_11.offCoord (ix1 e) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S4x131072_S8388608x2_S8388608_n_01_n_n_01_1_11.startIndexMap by decide)]
    have hsi : gather_S4x131072_S8388608x2_S8388608_n_01_n_n_01_1_11.siIdx (ix1 e)
        ⟨List.idxOf (1 : Fin 2) gather_S4x131072_S8388608x2_S8388608_n_01_n_n_01_1_11.startIndexMap,
          List.idxOf_lt_length_iff.2 (by decide)⟩ = ix2 e 1 := by
      funext b; refine Fin.ext ?_
      match b with
      | ⟨0, _⟩ => rfl
      | ⟨1, _⟩ => rfl
    rw [hsi]
    rfl

end Gather

section Concat
variable {F : FTy → Type} [FloatOps F]

/-- Column 0 of the start indices is the first piece of the concatenation: the constant word 0. -/
theorem v30_left (x3 : (⟨S4x2x8388608, .i32⟩ : BufTy).Contents (Elt F)) (e : Fin 8388608) :
    val_main_v30 (F := F) x3 (ix2 e 0) = 0#32 := by
  unfold val_main_v30
  rw [concatenate_pair_apply_left (1 : Fin S8388608x2.rank) _ _ concatenates_S8388608x1_S8388608x1_S8388608x2_d1
    (ix2 e 0) rfl (ix2 e 0) (fun b => by match b with | ⟨0, _⟩ => rfl | ⟨1, _⟩ => rfl)]
  rw [val_main_v28_apply, val_main_v27_apply, val_main_v26_apply, val_main_c_6_apply]

/-- Column 1 of the start indices is the second piece of the concatenation (its one column sits at position
    1 = 0 + the first piece's extent 1): the wrapped destination word of the edge. -/
theorem v30_right (x3 : (⟨S4x2x8388608, .i32⟩ : BufTy).Contents (Elt F)) (e : Fin 8388608) :
    val_main_v30 (F := F) x3 (ix2 e 1) = val_main_v25 (F := F) x3 (ix1 e) := by
  unfold val_main_v30
  rw [concatenate_pair_apply_right (1 : Fin S8388608x2.rank) _ _ concatenates_S8388608x1_S8388608x1_S8388608x2_d1
    (ix2 e 1) rfl rfl (ix2 e 0)
    (fun b hb => by match b with | ⟨0, _⟩ => rfl | ⟨1, _⟩ => exact absurd rfl hb)
    rfl]
  rw [val_main_v29_apply]
  congr 1
  funext a
  match a with
  | ⟨0, _⟩ => rfl

end Concat

section Fold
variable {ι κ α : Type} [DecidableEq κ]

/-- A left fold of single-entry writes leaves an entry that no write addresses as it was. -/
theorem foldl_write_of_not_mem (st : (κ → α) → ι → (κ → α)) (g : ι → κ) (v : ι → α)
    (hst : ∀ r n j, st r n j = if j = g n then v n else r j) (i' : κ) :
    ∀ (l : List ι) (x : κ → α), (∀ n ∈ l, g n ≠ i') → (l.foldl st x) i' = x i'
  | [], _, _ => rfl
  | a :: l, x, h => by
    rw [List.foldl_cons, foldl_write_of_not_mem st g v hst i' l _ (fun n hn => h n (List.mem_cons_of_mem _ hn)), hst]
    exact if_neg (fun e => h a List.mem_cons_self e.symm)

/-- A left fold of single-entry writes at pairwise distinct addresses holds, at the address of a write in the list,
    that write's value. -/
theorem foldl_write_of_mem (st : (κ → α) → ι → (κ → α)) (g : ι → κ) (v : ι → α)
    (hst : ∀ r n j, st r n j = if j = g n then v n else r j) (hg : Function.Injective g) (n : ι) :
    ∀ (l : List ι) (x : κ → α), l.Nodup → n ∈ l → (l.foldl st x) (g n) = v n
  | [], _, _, h => absurd h List.not_mem_nil
  | a :: l, x, hnd, h => by
    rw [List.foldl_cons]
    rcases List.mem_cons.1 h with rfl | hl
    · rw [foldl_write_of_not_mem st g v hst (g n) l _ (fun m hm e => (List.nodup_cons.1 hnd).1 (hg e ▸ hm)), hst]
      exact if_pos rfl
    · exact foldl_write_of_mem st g v hst hg n l _ (List.nodup_cons.1 hnd).2 hl

end Fold

section Scatter
variable {α : Type}

/-- With the one scatter index the word 0, update position j lands at entry (0, j). -/
theorem resultIdx_row0 (idx : IVec S1 32) (hidx : idx (ix1 0) = 0#32) (j : S131072.Idx) :
    scatter_S4x131072_S1_S131072_0_0_0_0.resultIdx? j idx = some (ix2 (0 : Fin 4) (j 0)) := by
  have hs0 : scatter_S4x131072_S1_S131072_0_0_0_0.start j idx 0 = 0 := by
    unfold ScatterDims.start
    rw [dif_pos (show (0 : Fin 2) ∈ scatter_S4x131072_S1_S131072_0_0_0_0.scatterDimsToOperandDims by decide)]
    have hsi : scatter_S4x131072_S1_S131072_0_0_0_0.siIdx j
        ⟨List.idxOf (0 : Fin 2) scatter_S4x131072_S1_S131072_0_0_0_0.scatterDimsToOperandDims,
          List.idxOf_lt_length_iff.2 (by decide)⟩ = ix1 0 := by
      funext b; refine Fin.ext ?_
      match b with
      | ⟨0, _⟩ => rfl
    rw [hsi, hidx]; rfl
  have hs1 : scatter_S4x131072_S1_S131072_0_0_0_0.start j idx 1 = 0 := by
    unfold ScatterDims.start
    rw [dif_neg (show ¬ (1 : Fin 2) ∈ scatter_S4x131072_S1_S131072_0_0_0_0.scatterDimsToOperandDims by decide)]
  have hw0 : scatter_S4x131072_S1_S131072_0_0_0_0.window j 0 = 0 := by
    unfold ScatterDims.window
    rw [dif_neg (show ¬ (0 : Fin 2) ∈ scatter_S4x131072_S1_S131072_0_0_0_0.sKept by decide)]
  have hw1 : scatter_S4x131072_S1_S131072_0_0_0_0.window j 1 = (j 0).val := by
    unfold ScatterDims.window
    rw [dif_pos (show (1 : Fin 2) ∈ scatter_S4x131072_S1_S131072_0_0_0_0.sKept by decide)]
    rfl
  have hj : (j 0).val < 131072 := (j 0).isLt
  have hin : ∀ a : Fin 2, 0 ≤ scatter_S4x131072_S1_S131072_0_0_0_0.start j idx a + (scatter_S4x131072_S1_S131072_0_0_0_0.window j a : Int)
      ∧ scatter_S4x131072_S1_S131072_0_0_0_0.start j idx a + (scatter_S4x131072_S1_S131072_0_0_0_0.window j a : Int) < (S4x131072.size a : Int) := by
    intro a
    match a with
    | ⟨0, _⟩ =>
      show 0 ≤ scatter_S4x131072_S1_S131072_0_0_0_0.start j idx 0 + (scatter_S4x131072_S1_S131072_0_0_0_0.window j 0 : Int)
        ∧ scatter_S4x131072_S1_S131072_0_0_0_0.start j idx 0 + (scatter_S4x131072_S1_S131072_0_0_0_0.window j 0 : Int) < ((4 : Nat) : Int)
      rw [hs0, hw0]; omega
    | ⟨1, _⟩ =>
      show 0 ≤ scatter_S4x131072_S1_S131072_0_0_0_0.start j idx 1 + (scatter_S4x131072_S1_S131072_0_0_0_0.window j 1 : Int)
        ∧ scatter_S4x131072_S1_S131072_0_0_0_0.start j idx 1 + (scatter_S4x131072_S1_S131072_0_0_0_0.window j 1 : Int) < ((131072 : Nat) : Int)
      rw [hs1, hw1]; omega
  unfold ScatterDims.resultIdx?
  rw [dif_pos hin]
  congr 1
  funext a
  refine Fin.ext ?_
  match a with
  | ⟨0, _⟩ =>
    show (scatter_S4x131072_S1_S131072_0_0_0_0.start j idx 0 + (scatter_S4x131072_S1_S131072_0_0_0_0.window j 0 : Int)).toNat = 0
    rw [hs0, hw0]; rfl
  | ⟨1, _⟩ =>
    show (scatter_S4x131072_S1_S131072_0_0_0_0.start j idx 1 + (scatter_S4x131072_S1_S131072_0_0_0_0.window j 1 : Int)).toNat = (j 0).val
    rw [hs1, hw1]; omega

/-- The entry update position n of the row writes: (0, n). -/
def rowTarget (n : Fin S131072.numel) : S4x131072.Idx := ix2 (0 : Fin 4) ((S131072.rowMajor.symm n) 0)

theorem rowTarget_injective : Function.Injective rowTarget := by
  intro n m h
  have h1 : (S131072.rowMajor.symm n) 0 = (S131072.rowMajor.symm m) 0 := congrFun h 1
  exact S131072.rowMajor.symm.injective ((eq_ix1 _).trans ((congrArg ix1 h1).trans (eq_ix1 _).symm))

/-- A scatter that SETS, with one scatter index the word 0 and the update's one axis a window along the operand's
    second axis, writes the update into row 0 and leaves every other row as the operand has it: update position n
    writes entry (0, n) and no other, and distinct positions write distinct entries. -/
theorem scatter_row0_apply (z : S4x131072.Idx → α) (idx : IVec S1 32) (hidx : idx (ix1 0) = 0#32)
    (u : S131072.Idx → α) (b : Fin 4) (k : Fin 131072) :
    Host.scatter scatter_S4x131072_S1_S131072_0_0_0_0 (fun _ y => y) z idx u (ix2 b k)
      = if b = 0 then u (ix1 k) else z (ix2 b k) := by
  unfold Host.scatter
  by_cases hb : b = 0
  · subst hb
    rw [if_pos rfl]
    have hk : ix2 (0 : Fin 4) k = rowTarget (S131072.rowMajor (ix1 k)) := by
      unfold rowTarget; rw [Equiv.symm_apply_apply]
    have hv : u (ix1 k) = (fun n : Fin S131072.numel => u (S131072.rowMajor.symm n)) (S131072.rowMajor (ix1 k)) := by
      show _ = u (S131072.rowMajor.symm (S131072.rowMajor (ix1 k))); rw [Equiv.symm_apply_apply]
    rw [hk, hv]
    refine foldl_write_of_mem _ rowTarget (fun n : Fin S131072.numel => u (S131072.rowMajor.symm n)) ?_
      rowTarget_injective _ _ z (List.nodup_finRange _) (List.mem_finRange _)
    intro r n j
    beta_reduce
    rw [resultIdx_row0 idx hidx]
    rfl
  · rw [if_neg hb]
    refine foldl_write_of_not_mem _ rowTarget (fun n : Fin S131072.numel => u (S131072.rowMajor.symm n)) ?_
      (ix2 b k) _ z (fun n _ e => hb (congrFun e 0).symm)
    intro r n j
    beta_reduce
    rw [resultIdx_row0 idx hidx]
    rfl

end Scatter

section Read

/-- The flattening of the scaled features reads entry (b, n) of the [4, 131072] table at (b, n, 0). -/
theorem idx19 (b : Fin 4) (n : Fin 131072) : idx_main_v19 (ix2 b n) = ix3 b n 0 := by
  have hb := b.isLt
  have hn := n.isLt
  funext a
  refine Fin.ext ?_
  match a with
  | ⟨0, _⟩ => show (b.val * 131072 + n.val) / 131072 = b.val; omega
  | ⟨1, _⟩ => show (b.val * 131072 + n.val) / 1 % 131072 = n.val; omega
  | ⟨2, _⟩ => rfl

/-- The three broadcasts that lay the per-node scale over the [4, 131072, 1] features read it at the node. -/
theorem idx15_16_17 (b : Fin 4) (n : Fin 131072) (c : Fin 1) :
    idx_main_v15 (idx_main_v16 (idx_main_v17 (ix3 b n c))) = ix1 n := by
  funext a
  match a with
  | ⟨0, _⟩ => rfl

/-- The same three broadcasts where they occur a second time, laying the scale over the aggregated messages. -/
theorem idx15_43_44 (b : Fin 4) (n : Fin 131072) (c : Fin 1) :
    idx_main_v15 (idx_main_v43 (idx_main_v44 (ix3 b n c))) = ix1 n := by
  funext a
  match a with
  | ⟨0, _⟩ => rfl

/-- The message of edge e: the scaled feature of batch 0 at the edge's clamped destination node. -/
theorem msg_apply (x0 : FVec Ideal S4x131072x1 .f32) (x3 : IVec S4x2x8388608 32) (e : Fin 8388608) :
    val_main_v31 (F := Ideal) x0 x3 (ix1 e)
      = x0 (ix3 0 (node (val_main_v25 (F := Ideal) x3 (ix1 e))) 0)
        * Ideal.pow (val_main_v12 (F := Ideal) x3 (ix1 (node (val_main_v25 (F := Ideal) x3 (ix1 e)))))
            (Ideal.ofBits .f32 0xBF000000#32) := by
  unfold val_main_v31
  rw [gather_pair_apply, v30_left, v30_right, row_zero]
  rw [val_main_v19_apply, idx19, val_main_v18_apply, val_main_v17_apply, val_main_v16_apply, val_main_v15_apply,
    idx15_16_17, val_main_v14_apply, val_main_v13_apply, val_main_cst_2_apply]
  rfl

end Read

section Result

/-- The contraction's left operand at output (b, 0, c) and contraction position k is entry (b, 0, k). -/
theorem lidx47 (b : Fin 4) (c : Fin 16) (k : Fin 131072) : lidx_main_v47 (ix3 b 0 c) k = ix3 b 0 k := by
  funext a
  match a with
  | ⟨0, _⟩ => rfl
  | ⟨1, _⟩ => rfl
  | ⟨2, _⟩ => rfl

/-- The contraction's right operand at output (b, 0, c) and contraction position k is entry (c, k) of the weights. -/
theorem ridx47 (b : Fin 4) (c : Fin 16) (k : Fin 131072) : ridx_main_v47 (ix3 b 0 c) k = ix2 c k := by
  funext a
  match a with
  | ⟨0, _⟩ => rfl
  | ⟨1, _⟩ => rfl

/-- The transpose that moves the node axis last reads entry (b, 0, k) at (b, k, 0). -/
theorem idx46 (b : Fin 4) (k : Fin 131072) : idx_main_v46 (ix3 b 0 k) = ix3 b k 0 := by
  funext a
  match a with
  | ⟨0, _⟩ => rfl
  | ⟨1, _⟩ => rfl
  | ⟨2, _⟩ => rfl

/-- The broadcast that adds a trailing unit axis to the [4, 131072] array reads (b, k, 0) at (b, k). -/
theorem idx42 (b : Fin 4) (k : Fin 131072) (c : Fin 1) : idx_main_v42 (ix3 b k c) = ix2 b k := by
  funext a
  match a with
  | ⟨0, _⟩ => rfl
  | ⟨1, _⟩ => rfl

/-- The two broadcasts of the bias read it at the output feature. -/
theorem idx48_49 (b : Fin 4) (c : Fin 16) : idx_main_v48 (idx_main_v49 (ix3 b 0 c)) = ix1 c := by
  funext a
  match a with
  | ⟨0, _⟩ => rfl

/-- The [4, 131072] array whose row 0 is the aggregated messages and whose other rows are zero. -/
theorem v41_apply (x0 : FVec Ideal S4x131072x1 .f32) (x3 : IVec S4x2x8388608 32) (b : Fin 4) (k : Fin 131072) :
    val_main_v41 (F := Ideal) x0 x3 (ix2 b k) = if b = 0 then val_main_v38 (F := Ideal) x0 x3 (ix1 k) else 0 := by
  unfold val_main_v41
  rw [scatter_row0_apply _ _ (by rw [val_main_v40_apply, val_main_c_10_apply]), val_main_v39_apply, val_main_cst_9_apply,
    Ideal.ofBits_def, Ideal.ofBits_zero_f32]

/-- The reference's result at (b, 0, c): the aggregated messages (batch 0 only) scaled per node, against row c of
    the weights, plus the bias. -/
theorem result_apply (x0 : FVec Ideal S4x131072x1 .f32) (x1 : FVec Ideal S16x131072 .f32) (x2 : FVec Ideal S16 .f32)
    (x3 : IVec S4x2x8388608 32) (b : Fin 4) (c : Fin 16) :
    val_main_v50 (F := Ideal) x0 x1 x2 x3 (ix3 b 0 c)
      = (∑ k : Fin 131072, ((if b = 0 then val_main_v38 (F := Ideal) x0 x3 (ix1 k) else 0)
            * Ideal.pow (val_main_v12 (F := Ideal) x3 (ix1 k)) (Ideal.ofBits .f32 0xBF000000#32)) * x1 (ix2 c k))
        + x2 (ix1 c) := by
  rw [val_main_v50_apply, val_main_v47_apply, val_main_v49_apply, val_main_v48_apply, idx48_49, Ideal.addf_def]
  refine congrArg (fun t => t + x2 (ix1 c)) (Finset.sum_congr rfl fun k _ => ?_)
  rw [lidx47, ridx47, val_main_v46_apply, idx46, val_main_v45_apply, val_main_v42_apply, idx42, v41_apply,
    val_main_v44_apply, val_main_v43_apply, val_main_v15_apply, idx15_43_44, val_main_v14_apply, val_main_v13_apply,
    val_main_cst_2_apply]
  rfl

end Result

end Cert.Gcn.Ref

end
-- ==== Proof.HostPre.lean ====
import proofs.«416099_j3487513445090_3_alg».proof.Proof.Gen.KernelIdeal.Frame
import Idealize.ShloMosaic.Lib.StableHlo.Run

/-!
# The arrays the region is entered with

Before its one region the program computes, from the edge list `e` (shape [4, 2, 8388608], of which only
batch 0 is read) and the features `x` (shape [4, 131072, 1], batch 0 again):

* `deg`: for every node, the number of edges whose SOURCE word names it — a float scatter-add of ones over
  the wrapped source words, starting from zero;
* `agg`: for every node, the sum over the edges leaving it of `x[dst] * rsqrt (deg[dst])` — the messages
  gathered at the wrapped destination words, scatter-added at the wrapped source words, starting from zero.

A negative word `w` is wrapped to `w + 131072` (the axis length), as indexing from the end does.
Both arrays reach the region reshaped to [1, 131072]. Here they are named as pure terms of the inputs, and the
two buffers the region's first two windows read are shown to hold exactly these terms. The scatter-adds and the
gather are carried as opaque operations: nothing below evaluates them.
-/

noncomputable section

namespace Cert.Gcn.HostPre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

/-- Row 0 of batch 0 of the edge list: the source word of every edge. -/
def srcWords (e : IVec S4x2x8388608 32) : IVec S8388608 32 :=
  shapeCast S8388608 (extractStridedSlice S1x1x8388608 ![0, 0, 0] e slices_S4x2x8388608_S1x1x8388608_0_0_0) shapeCasts_S1x1x8388608_S8388608

/-- Row 1 of batch 0 of the edge list: the destination word of every edge. -/
def dstWords (e : IVec S4x2x8388608 32) : IVec S8388608 32 :=
  shapeCast S8388608 (extractStridedSlice S1x1x8388608 ![0, 1, 0] e slices_S4x2x8388608_S1x1x8388608_0_1_0) shapeCasts_S1x1x8388608_S8388608

/-- A negative index word wrapped by the axis length 131072 (indexing from the end), kept as a column of start
    indices. -/
def wrap (w : IVec S8388608 32) : IVec S8388608x1 32 :=
  broadcastInDim S8388608x1 ![0] bcast_S8388608_S8388608x1_0
    (select (cmpi .slt w (broadcastInDim S8388608 ![] bcast_S_S8388608 (constantI S_ 32 0#32)))
      (addi w (broadcastInDim S8388608 ![] bcast_S_S8388608 (constantI S_ 32 131072#32))) w)

/-- The out-degree of every node: ones added at the wrapped source words, from zero. -/
def deg (e : IVec S4x2x8388608 32) : FVec F S131072 .f32 :=
  Host.scatterAdd scatter_S131072_S8388608x1_S8388608_n_0_0_1
    (broadcastInDim S131072 ![] bcast_S_S131072 (constant S_ .f32 0x00000000#32))
    (wrap (srcWords e))
    (broadcastInDim S8388608 ![] bcast_S_S8388608 (constant S_ .f32 0x3F800000#32))

/-- Batch 0 of the features, one value per node. -/
def feat0 (x : FVec F S4x131072x1 .f32) : FVec F S131072 .f32 :=
  shapeCast S131072 (extractStridedSlice S1x131072x1 ![0, 0, 0] x slices_S4x131072x1_S1x131072x1_0_0_0) shapeCasts_S1x131072x1_S131072

/-- The message of every edge: the degree-normalised feature of its destination node. -/
def msg (x : FVec F S4x131072x1 .f32) (e : IVec S4x2x8388608 32) : FVec F S8388608 .f32 :=
  Host.gather gather_S131072_S8388608x1_S8388608_n_0_n_n_0_1_1 (mulf (feat0 x) (Host.rsqrt (deg (F := F) e))) (wrap (dstWords e))

/-- The messages summed at the source node of their edge, from zero. -/
def agg (x : FVec F S4x131072x1 .f32) (e : IVec S4x2x8388608 32) : FVec F S131072 .f32 :=
  Host.scatterAdd scatter_S131072_S8388608x1_S8388608_n_0_0_1
    (broadcastInDim S131072 ![] bcast_S_S131072 (constant S_ .f32 0x00000000#32))
    (wrap (srcWords e))
    (msg x e)

variable (m : (ℓ : Loc nD τ sig) → Buf (Elt F) ℓ)

/-- The region's first window reads the degrees, as a row. -/
theorem V_main_v32 (c : Dev nD) :
    V m c main_v32 = shapeCast S1x131072 (deg (F := F) (m ((c.tc : Thread nD τ).loc main_arg3))) shapeCasts_S131072_S1x131072 := by
  show StableHlo.after hostOps0 (fun b => m (c, b)) (Proc.devRef .tc main_v32) = _
  unfold deg wrap srcWords
  after_results
  rfl

set_option maxHeartbeats 4000000 in
/-- The region's second window reads the aggregated messages, as a row. -/
theorem V_main_v33 (c : Dev nD) :
    V m c main_v33 = shapeCast S1x131072 (agg (F := F) (m ((c.tc : Thread nD τ).loc main_arg0)) (m ((c.tc : Thread nD τ).loc main_arg3))) shapeCasts_S131072_S1x131072 := by
  show StableHlo.after hostOps0 (fun b => m (c, b)) (Proc.devRef .tc main_v33) = _
  after_results_simp
  unfold agg msg feat0 deg wrap srcWords dstWords
  rfl

end Cert.Gcn.HostPre

end
-- ==== Proof.Msg.lean ====
/-
  The kernel program's gathered message of one edge, on the extended reals.

  The kernel's host code scales graph 0's node features by the reciprocal square root of the node degrees and
  gathers, for every edge, the scaled feature of the edge's destination node. The destination word is first wrapped
  (a negative word has the node count added) and the gather then reads it as a signed number clamped into the node
  range. So the message of edge p is feature(node) * rsqrt(deg(node)) at node = clamp(wrapped destination word of p).
-/
import proofs.«416099_j3487513445090_3_alg».proof.Proof.HostPre
import Idealize.ShloMosaic.Lib.StableHlo.Predicate
import Idealize.ShloMosaic.Lib.Pipeline.Value
import Idealize.ShloMosaic.Lib.ValueIdx
import Idealize.ShloMosaic.PureOps.Ideal.Laws

noncomputable section

open Idealize.ShloMosaic Idealize.ShloMosaic.ValueIdx Idealize.ShloMosaic.StableHlo.Predicate

namespace Cert.Gcn.Msg

open Cert.KernelIdeal Cert.KernelIdeal.Facts₀ Cert.Gcn.HostPre

/-- A start-index word read as a signed number and clamped into the node range. -/
def node (w : BitVec 32) : Fin 131072 := ⟨min w.toInt.toNat 131071, by omega⟩

/-- The rank-1 index at a coordinate, in its two spellings. -/
theorem ofFin_eq_ix1 {n : Nat} (k : Fin n) : Shape.Idx.ofFin k = ix1 k :=
  funext fun d => by match d with | ⟨0, _⟩ => exact Fin.ext rfl

/-- The wrapped destination word of edge p. -/
def dstWord (e : IVec S4x2x8388608 32) (p : Fin 8388608) : BitVec 32 := wrap (dstWords e) (ixP p)

/-- Graph 0's feature of node n. -/
theorem feat0_apply (x : FVec Ideal S4x131072x1 .f32) (n : Fin 131072) :
    feat0 (F := Ideal) x (ix1 n) = x (ix3 0 n 0) := by
  unfold feat0
  refine (shapeCast_apply _ shapeCasts_S1x131072x1_S131072 (ix1 n) (ix3 0 n 0) ?_).trans ?_
  · rewrite [Shape.rowMajor_val_three, Shape.rowMajor_val_one]
    show (0 * 131072 + n.val) * 1 + 0 = n.val
    omega
  · exact extractStridedSlice_apply ![0, 0, 0] x slices_S4x131072x1_S1x131072x1_0_0_0 (ix3 0 n 0) (ix3 0 n 0)
      (fun a => match a with
        | ⟨0, _⟩ => rfl
        | ⟨1, _⟩ => by show n.val = 0 + n.val; omega
        | ⟨2, _⟩ => rfl)

/-- The gather of a scaled table at edge p, for any table X, any scale argument D and any column W of start
    words: the table entry at the clamped word, times the reciprocal square root of D there. -/
theorem gather_scaled (X D : FVec Ideal S131072 .f32) (W : IVec S8388608x1 32) (p : Fin 8388608) :
    Host.gather gather_S131072_S8388608x1_S8388608_n_0_n_n_0_1_1 (mulf X (Host.rsqrt D)) W (ix1 p)
      = X (ix1 (node (W (ixP p)))) * Ideal.rsqrt (D (ix1 (node (W (ixP p))))) := by
  rw [← ofFin_eq_ix1 p,
    gather_take gather_S131072_S8388608x1_S8388608_n_0_n_n_0_1_1 rfl rfl rfl rfl _ _ p (by decide)]
  show FloatOps.mulf (X _) (FloatOps.hostUnary .rsqrt (D _)) = _
  rw [Ideal.mulf_def, Ideal.hostUnary_rsqrt_def, ofFin_eq_ix1]
  rfl

/-- The message of edge p: the scaled feature of its clamped, wrapped destination node. -/
theorem msg_apply (x : FVec Ideal S4x131072x1 .f32) (e : IVec S4x2x8388608 32) (p : Fin 8388608) :
    msg (F := Ideal) x e (ix1 p)
      = x (ix3 0 (node (dstWord e p)) 0) * Ideal.rsqrt (deg (F := Ideal) e (ix1 (node (dstWord e p)))) := by
  unfold msg dstWord
  rw [gather_scaled, feat0_apply]

end Cert.Gcn.Msg

end
-- ==== Proof.Scalar.lean ====
/-
  The two scalar facts the certificate rests on, over the extended reals.

  The kernel scales by the reciprocal square root of a node's degree, the reference by the degree raised to the
  power -1/2. On the extended reals the two agree at every positive argument: at a positive real both are
  1 / sqrt r, and at +infinity both are 0. They differ at 0 (the reciprocal square root is +infinity there, the
  real power 0 ^ (-1/2) is 0), which is why the statement asks for positive degrees.
-/
import Idealize.ShloMosaic.PureOps.Ideal
import Idealize.ShloMosaic.PureOps.Ideal.Laws

noncomputable section

namespace Cert.Gcn

open Idealize.ShloMosaic

/-- The reference's exponent, the f32 word of -0.5, denotes the real -1/2. -/
theorem ofBits_neg_half : Ideal.ofBits .f32 0xBF000000#32 = ((-(1 / 2) : ℝ) : EReal) := by
  simp [Ideal.ofBits, Ideal.ieee, -EReal.coe_mul]; norm_num

/-- At a positive extended real the reciprocal square root is the power -1/2. -/
theorem rsqrt_eq_pow (x : EReal) (hx : 0 < x) :
    Ideal.rsqrt x = Ideal.pow x ((-(1 / 2) : ℝ) : EReal) := by
  induction x using EReal.rec with
  | bot => exact absurd hx (by simp)
  | top =>
    rw [Ideal.rsqrt_top, Ideal.pow_top]
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      exact_mod_cast (by norm_num : (-(1 / 2) : ℝ) ≠ 0)
    rw [if_neg h1, if_neg h2]
  | coe r =>
    have hr : 0 < r := by exact_mod_cast hx
    rw [Ideal.rsqrt_coe, Ideal.pow_coe_coe, if_neg (not_lt.mpr hr.le), if_neg hr.ne']
    congr 1
    rw [Real.rpow_eq_pow, Real.rpow_neg hr.le, Real.sqrt_eq_rpow]

end Cert.Gcn

end
-- ==== Proof.PreDecode.lean ====
import proofs.«416099_j3487513445090_3_alg».proof.Pre_finite_inputs
import proofs.«416099_j3487513445090_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

/-!
  The precondition read back.  The precondition is a conjunction of four "for all" statements over its
  inputs; the last one says that every node of graph 0 has positive degree, the degree of node `n` being the
  number of edges whose source word (wrapped into range when negative) is `n`, computed as the sum of ones
  scattered at those words into an array of zeros.  From "the precondition is true" we extract that last
  conjunct as an inequality between extended reals, `0 < deg e n` for every node `n`.  The scattered sum is
  never opened: it stays one term, the same term the precondition compares with zero.
-/

noncomputable section

namespace Cert.Gcn.PreDecode

open Idealize.ShloMosaic Cert.Pre_finite_inputs Cert.Pre_finite_inputs.Facts

/-- The source words of graph 0's edges. -/
def srcWords (e : IVec S4x2x8388608 32) : IVec S8388608 32 :=
  shapeCast S8388608 (extractStridedSlice S1x1x8388608 ![0, 0, 0] e slices_S4x2x8388608_S1x1x8388608_0_0_0) shapeCasts_S1x1x8388608_S8388608

/-- The node degrees exactly as the precondition's chain computes them: ones summed at the wrapped source words
    (a negative word `w` is read as `w + 131072`) into an array of zeros. -/
def deg (e : IVec S4x2x8388608 32) : FVec Ideal S131072 .f32 :=
  Host.scatterAdd scatter_S131072_S8388608x1_S8388608_n_0_0_1
    (broadcastInDim S131072 ![] bcast_S_S131072 (constant S_ .f32 0x00000000#32))
    (broadcastInDim S8388608x1 ![0] bcast_S8388608_S8388608x1_0
      (select (cmpi .slt (srcWords e) (broadcastInDim S8388608 ![] bcast_S_S8388608 (constantI S_ 32 0#32)))
        (addi (srcWords e) (broadcastInDim S8388608 ![] bcast_S_S8388608 (constantI S_ 32 131072#32))) (srcWords e)))
    (broadcastInDim S8388608 ![] bcast_S_S8388608 (constant S_ .f32 0x3F800000#32))

/-- The scalar shape has one index. -/
instance : Subsingleton S_.Idx := ⟨fun a b => funext fun d => d.elim0⟩

/-- On the extended reals the comparison "greater than" answers 1 exactly when the strict inequality holds. -/
theorem lt_of_cmp_ogt {x y : EReal} (h : Ideal.cmp .ogt x y = 1#1) : y < x := by
  by_contra hn
  simp [Ideal.cmp, hn] at h

/-- Under the precondition every node of graph 0 has positive degree.  The predicate's value at its one index is
    a conjunction whose last member is the "for all nodes" of the comparison `deg > 0`; a conjunction that is 1
    has every member 1, a "for all" that is 1 has every element 1, and the comparison that is 1 at node `n` is
    the inequality, the zero it compares with being the real number 0. -/
theorem deg_pos (a0 : FVec Ideal S4x131072x1 .f32) (a1 : FVec Ideal S16x131072 .f32) (a2 : FVec Ideal S16 .f32)
    (e : IVec S4x2x8388608 32) (a4 : IVec S4 32)
    (h : fn (F := Ideal) a0 a1 a2 e a4 = fun _ => 1#1) (n : S131072.Idx) : (0 : EReal) < deg e n := by
  -- the precondition's value at its one index
  have h0 := congrFun h ValueIdx.ix0
  dsimp only [fn, fn_part1] at h0
  -- the last member of the conjunction: "for all nodes, deg > 0"
  have h1 := (IntOp.andi_eq_one.1 h0).2
  -- its element at node `n`
  have h2 := Host.reduce_andi_all _ _ _ _ _ h1 n
  rw [ValueIdx.cmpf_apply, Ideal.cmpf_def] at h2
  -- the comparison is the strict inequality
  have h4 := lt_of_cmp_ogt h2
  unfold deg srcWords
  -- the zero array at `n` is the real number 0
  have h5 : Ideal.ofBits .f32 0x00000000#32 < _ := h4
  rwa [Ideal.ofBits_zero_f32] at h5

end Cert.Gcn.PreDecode

end
-- ==== Proof.Agg.lean ====
/-
  Under positive degrees the two programs aggregate the same messages.

  Both programs compute the node degrees by the same chain of operations on the edge list, so the two degree
  arrays are one array. The reference scales a node's feature by deg ^ (-1/2), the kernel by rsqrt(deg); at a
  positive degree these are equal, so every edge's gathered message is the same number in the two programs (the
  reference gathers from the 4 x 131072 table at (0, node), the kernel from graph 0's row at node, with the same
  wrapped and clamped destination word). The aggregated arrays are then the same scatter-add of equal updates at
  the same source words.
-/
import proofs.«416099_j3487513445090_3_alg».proof.Proof.RefValue
import proofs.«416099_j3487513445090_3_alg».proof.Proof.Msg
import proofs.«416099_j3487513445090_3_alg».proof.Proof.Scalar
import proofs.«416099_j3487513445090_3_alg».proof.Proof.PreDecode

noncomputable section

open Idealize.ShloMosaic Idealize.ShloMosaic.ValueIdx Idealize.ShloMosaic.StableHlo.Predicate

namespace Cert.Gcn.Agg

open Cert.Gcn

/-- The reference's degree array is the kernel program's: the same operations on the edge list. -/
theorem deg_ref (e : IVec Cert.KernelIdeal.S4x2x8388608 32) :
    Cert.ReferenceIdeal.Read.val_main_v12 (F := Ideal) e = HostPre.deg (F := Ideal) e := rfl

/-- The precondition's degree array is the kernel program's. -/
theorem deg_pre (e : IVec Cert.KernelIdeal.S4x2x8388608 32) :
    PreDecode.deg e = HostPre.deg (F := Ideal) e := rfl

/-- The kernel program's column of wrapped destination words is the column of the reference's wrapped words. -/
theorem wrap_dst (e : IVec Cert.KernelIdeal.S4x2x8388608 32) :
    HostPre.wrap (HostPre.dstWords e)
      = broadcastInDim Cert.KernelIdeal.S8388608x1 ![0] Cert.KernelIdeal.Facts₀.bcast_S8388608_S8388608x1_0
          (Cert.ReferenceIdeal.Read.val_main_v25 (F := Ideal) e) := rfl

/-- Edge p's wrapped destination word, in the two programs. -/
theorem dstWord_eq (e : IVec Cert.KernelIdeal.S4x2x8388608 32) (p : Fin 8388608) :
    Msg.dstWord e p = Cert.ReferenceIdeal.Read.val_main_v25 (F := Ideal) e (ix1 p) := by
  unfold Msg.dstWord
  rw [wrap_dst, bcast_col1, Msg.ofFin_eq_ix1]

/-- The two clamps are one function. -/
theorem node_eq (w : BitVec 32) : Ref.node w = Msg.node w := rfl

/-- At a positive degree the reference's scale is the kernel's. -/
theorem scale_eq (d : EReal) (hd : 0 < d) : Ideal.pow d (Ideal.ofBits .f32 0xBF000000#32) = Ideal.rsqrt d := by
  rw [ofBits_neg_half, rsqrt_eq_pow d hd]

/-- Every edge's message is the same in the two programs. -/
theorem msg_eq (x : FVec Ideal Cert.KernelIdeal.S4x131072x1 .f32) (e : IVec Cert.KernelIdeal.S4x2x8388608 32)
    (hpos : ∀ n : Cert.KernelIdeal.S131072.Idx, (0 : EReal) < HostPre.deg (F := Ideal) e n) :
    Cert.ReferenceIdeal.Read.val_main_v31 (F := Ideal) x e = HostPre.msg (F := Ideal) x e := by
  funext i
  obtain ⟨p, rfl⟩ : ∃ p : Fin 8388608, i = ix1 p := ⟨i 0, eq_ix1 i⟩
  rw [Ref.msg_apply, Msg.msg_apply, dstWord_eq, node_eq, deg_ref, scale_eq _ (hpos _)]

/-- The reference's aggregated array, spelt with the kernel program's records. -/
theorem agg_ref (x : FVec Ideal Cert.KernelIdeal.S4x131072x1 .f32) (e : IVec Cert.KernelIdeal.S4x2x8388608 32) :
    Cert.ReferenceIdeal.Read.val_main_v38 (F := Ideal) x e
      = Host.scatterAdd Cert.KernelIdeal.scatter_S131072_S8388608x1_S8388608_n_0_0_1
          (broadcastInDim Cert.KernelIdeal.S131072 ![] Cert.KernelIdeal.Facts₀.bcast_S_S131072 (constant (F := Ideal) Cert.KernelIdeal.S_ .f32 0x00000000#32))
          (HostPre.wrap (HostPre.srcWords e)) (Cert.ReferenceIdeal.Read.val_main_v31 (F := Ideal) x e) := rfl

/-- The kernel program's aggregated array, unfolded one step. -/
theorem agg_ker (x : FVec Ideal Cert.KernelIdeal.S4x131072x1 .f32) (e : IVec Cert.KernelIdeal.S4x2x8388608 32) :
    HostPre.agg (F := Ideal) x e
      = Host.scatterAdd Cert.KernelIdeal.scatter_S131072_S8388608x1_S8388608_n_0_0_1
          (broadcastInDim Cert.KernelIdeal.S131072 ![] Cert.KernelIdeal.Facts₀.bcast_S_S131072 (constant (F := Ideal) Cert.KernelIdeal.S_ .f32 0x00000000#32))
          (HostPre.wrap (HostPre.srcWords e)) (HostPre.msg (F := Ideal) x e) := rfl

/-- The two aggregated arrays are one array. -/
theorem agg_eq (x : FVec Ideal Cert.KernelIdeal.S4x131072x1 .f32) (e : IVec Cert.KernelIdeal.S4x2x8388608 32)
    (hpos : ∀ n : Cert.KernelIdeal.S131072.Idx, (0 : EReal) < HostPre.deg (F := Ideal) e n) :
    Cert.ReferenceIdeal.Read.val_main_v38 (F := Ideal) x e = HostPre.agg (F := Ideal) x e := by
  rw [agg_ref, agg_ker, msg_eq x e hpos]

end Cert.Gcn.Agg

end
-- ==== Proof.Bridge.lean ====
/-
  The kernel program's result array is the reference's, under positive degrees.

  Entry (b, 0, j) of the kernel program's result is fc_b(j) for b > 0, and for b = 0 the two halves' outputs added
  and then fc_b(j) added: ((B0 + B1) + (B2 + B3)) + fc_b(j), with Bt the sum over block t's columns n of
  (agg(n) * rsqrt(deg(n))) * fc_w(j, n). The reference's entry is (sum over all n of (a(b, n) * deg(n) ^ (-1/2)) *
  fc_w(j, n)) + fc_b(j), with a(0, n) = agg(n) and a(b, n) = 0 for b > 0. For b > 0 every term is 0 * s * w = 0.
  For b = 0 the degrees are positive, so the power is the reciprocal square root and the aggregated arrays agree;
  the sum over all columns is the sum of the four block sums because addition on the extended reals is
  commutative and associative.
-/
import proofs.«416099_j3487513445090_3_alg».proof.Proof.Final
import proofs.«416099_j3487513445090_3_alg».proof.Proof.Tail
import proofs.«416099_j3487513445090_3_alg».proof.Proof.Agg
import proofs.«416099_j3487513445090_3_alg».proof.Proof.SumSplit

noncomputable section

open Idealize.ShloMosaic Idealize.ShloMosaic.TcCoe Idealize.SL.Sem Idealize.ShloMosaic.ValueIdx

namespace Cert.Gcn.Bridge

open Cert.KernelIdeal Cert.KernelIdeal.Facts₀ Cert.KernelIdeal.Gen Cert.Gcn

variable (m : (ℓ : Loc nD τ sig) → Buf (Elt Ideal) ℓ)

/-- The four block sums, grouped as the kernel groups them, are the sum over all columns. -/
theorem combine (B : Fin 4 → EReal) (f : Fin 131072 → EReal) (hB : ∀ t, B t = ∑ k : Fin 32768, f (col t k)) :
    (B ⟨2 * (0 : Fin 2).val, by decide⟩ + B ⟨2 * (0 : Fin 2).val + 1, by decide⟩)
      + (B ⟨2 * (1 : Fin 2).val, by decide⟩ + B ⟨2 * (1 : Fin 2).val + 1, by decide⟩) = ∑ n : Fin 131072, f n := by
  rw [hB, hB, hB, hB, sum_halves]
  rfl

/-- A vector kept as a 1 x 131072 row reads, at (0, n), the vector at n. -/
theorem row_apply (X : FVec Ideal S131072 .f32) (n : Fin 131072) :
    shapeCast S1x131072 X Facts₀.shapeCasts_S131072_S1x131072 (ix2 0 n) = X (ix1 n) :=
  shapeCast_apply X Facts₀.shapeCasts_S131072_S1x131072 (ix2 0 n) (ix1 n)
    (by rewrite [Shape.rowMajor_val_one, Shape.rowMajor_val_two]; show n.val = 0 * 131072 + n.val; omega)

/-- The argument arrays, at their literal types. -/
abbrev feats (c : Dev nD) : FVec Ideal S4x131072x1 .f32 := m ((c.tc : Thread nD τ).loc main_arg0)
abbrev fcw (c : Dev nD) : FVec Ideal S16x131072 .f32 := m ((c.tc : Thread nD τ).loc main_arg1)
abbrev fcb (c : Dev nD) : FVec Ideal S16 .f32 := m ((c.tc : Thread nD τ).loc main_arg2)
abbrev edges (c : Dev nD) : IVec S4x2x8388608 32 := m ((c.tc : Thread nD τ).loc main_arg3)

/-- Column n's contribution in terms of the argument arrays. -/
theorem term_eq (c : Dev nD) (j : Fin 16) (n : Fin 131072) :
    Acc.term m c j n
      = (HostPre.agg (F := Ideal) (feats m c) (edges m c) (ix1 n) * Ideal.rsqrt (HostPre.deg (F := Ideal) (edges m c) (ix1 n)))
        * fcw m c (ix2 j n) := by
  unfold Acc.term Acc.aggRow Acc.degRow Acc.weights
  rw [HostPre.V_main_v33 m c, HostPre.V_main_v32 m c, V_main_arg1 m c, row_apply, row_apply]

/-- The two result arrays agree entry by entry. -/
theorem value_eq (c : Dev nD)
    (hpos : ∀ n : S131072.Idx, (0 : EReal) < HostPre.deg (F := Ideal) (edges m c) n) :
    Tail.tail (F := Ideal) (Final.out2 m c) (fcb m c)
      = Cert.ReferenceIdeal.Read.val_main_v50 (F := Ideal) (feats m c) (fcw m c) (fcb m c) (edges m c) := by
  funext i
  obtain ⟨b, q, j, rfl⟩ : ∃ (b : Fin 4) (q : Fin 1) (j : Fin 16), i = ix3 b q j := ⟨i 0, i 1, i 2, eq_ix3 i⟩
  obtain rfl : q = 0 := Subsingleton.elim _ _
  rw [Tail.tail_apply, Ref.result_apply]
  by_cases hb : b = 0
  · subst hb
    rw [if_pos rfl]
    refine congrArg (fun z : EReal => z + fcb m c (ix1 j)) ?_
    rw [Final.out2_apply m c (ix3 0 0 j) 0 j rfl rfl, Final.out2_apply m c (ix3 1 0 j) 1 j rfl rfl]
    refine combine (fun t => Acc.blockSum m c j t) _ fun t => ?_
    unfold Acc.blockSum
    refine Finset.sum_congr rfl fun k _ => ?_
    rw [term_eq, if_pos rfl, Agg.agg_eq (feats m c) (edges m c) hpos, Agg.deg_ref, Agg.scale_eq _ (hpos _)]
  · simp only [if_neg hb, zero_mul, Finset.sum_const_zero, zero_add]

end Cert.Gcn.Bridge

end
-- ==== Proof.lean ====
/-
  A graph-convolution layer: degree-scaled neighbour aggregation over graph 0's edges, then a linear projection.

  Both programs count each node's degree deg(n) (a scatter-add of ones at the wrapped source words of graph 0's
  edges), scale node features by the degree to the power -1/2, gather each edge's scaled destination feature,
  scatter-add the gathered values at the source nodes into agg, scale agg by the same power again, and contract
  against fc_w over the 131072 nodes, adding fc_b; only batch row 0 carries messages, the other rows are fc_b.
  The kernel writes the power as a reciprocal square root and does the contraction in a tiled kernel: the node
  axis is cut into four blocks of 32768, two per half of a 2 x 2 grid, each half accumulating its two block
  products into its own output row; the host adds the two rows and fc_b and sets batch row 0. The reference
  writes the power as deg ** -0.5 and contracts once.

  On the extended reals rsqrt(0) is +infinity while the real power 0 ^ (-1/2) is 0, so the statement carries the
  evident domain of the reference's negative power: every degree is positive. There the two scales agree, so the
  messages, the aggregated arrays and every column's contribution agree; the sum over all columns is the sum of
  the four block sums because addition on the extended reals is commutative and associative; and in the rows
  without messages every term is 0 * scale * weight = 0. No finiteness of the float inputs is used.

  The three frames: the two kernel programs' are the frame certificates of their pipelines, the reference's is its
  run with the result dropped. The idealization rewrote nothing, so its soundness conjunct is trivial.
-/
import proofs.«416099_j3487513445090_3_alg».proof.Defs
import proofs.«416099_j3487513445090_3_alg».proof.Proof.Gen.Kernel
import proofs.«416099_j3487513445090_3_alg».proof.Proof.Gen.Kernel.Skeleton
import proofs.«416099_j3487513445090_3_alg».proof.Proof.Gen.Kernel.Launch
import proofs.«416099_j3487513445090_3_alg».proof.Proof.Gen.Kernel.Points
import proofs.«416099_j3487513445090_3_alg».proof.Proof.Gen.Kernel.Frame
import proofs.«416099_j3487513445090_3_alg».proof.Proof.Gen.KernelIdeal
import proofs.«416099_j3487513445090_3_alg».proof.Proof.Gen.KernelIdeal.Skeleton
import proofs.«416099_j3487513445090_3_alg».proof.Proof.Gen.KernelIdeal.Launch
import proofs.«416099_j3487513445090_3_alg».proof.Proof.Gen.KernelIdeal.Points
import proofs.«416099_j3487513445090_3_alg».proof.Proof.Gen.KernelIdeal.Frame
import proofs.«416099_j3487513445090_3_alg».proof.Proof.Gen.ReferenceIdeal
import proofs.«416099_j3487513445090_3_alg».proof.Proof.Gen.Pre_finite_inputs
import proofs.«416099_j3487513445090_3_alg».proof.Proof.Gen.ReferenceIdeal.Run
import proofs.«416099_j3487513445090_3_alg».proof.Proof.Gen.ReferenceIdeal.Read
import proofs.«416099_j3487513445090_3_alg».proof.Proof.KernelRun
import proofs.«416099_j3487513445090_3_alg».proof.Proof.Bridge
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments and satisfying the precondition, both idealized programs run and end
    with the same result array: the kernel program's, which the reference's equals entry by entry. -/
theorem algebraic : Cert.algebraic_KernelIdeal_ReferenceIdeal := by
  intro m ρ m' ρ' hpre hagree
  refine ⟨fun c => Tail.tail (F := Ideal) (Final.out2 m c) (m ((c.tc : Thread Cert.KernelIdeal.nD Cert.KernelIdeal.τ).loc Cert.KernelIdeal.main_arg2)),
    KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1]
  have hpos : ∀ n : Cert.KernelIdeal.S131072.Idx,
      (0 : EReal) < HostPre.deg (F := Ideal) (m ((c.tc : Thread Cert.KernelIdeal.nD Cert.KernelIdeal.τ).loc Cert.KernelIdeal.main_arg3)) n := fun n => by
    rw [← Agg.deg_pre]
    exact PreDecode.deg_pos _ _ _ _ _ (hpre c) n
  exact (Bridge.value_eq m c hpos).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
